-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x1024 : Shape := ⟨2, ![64, 1024]⟩
abbrev S1024x49152 : Shape := ⟨2, ![1024, 49152]⟩
abbrev S49152 : Shape := ⟨1, ![49152]⟩
abbrev S64 : Shape := ⟨1, ![64]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x49152 : S_.BroadcastsInDim S1024x49152 (![] : Fin 0 → Fin S1024x49152.rank)
  reducesTo_S1024x49152_S_d0_1 : S1024x49152.ReducesTo [0, 1] S_
  bcast_S_S49152 : S_.BroadcastsInDim S49152 (![] : Fin 0 → Fin S49152.rank)
  reducesTo_S49152_S_d0 : S49152.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S49152 1) : IVec S_ 1 :=
  let main_c_5 : IVec S_ 1 := constantI S_ 1 1#1
  let main_v17 : IVec S_ 1 := (fun x v => Host.reduce IntOp.andi x v reducesTo_S49152_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x4096x64 .f32) (main_arg1 : FVec F S64x1024 .f32) (main_arg2 : FVec F S1024x49152 .f32) (main_arg3 : FVec F S49152 .f32) (main_arg4 : FVec F S64 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x49152 .f32 := Host.absf main_arg2
  let main_cst_2 : FVec F S_ .f32 := constant S_ .f32 0x7F800000#32
  let main_v10 : FVec F S1024x49152 .f32 := broadcastInDim S1024x49152 ![] bcast_S_S1024x49152 main_cst_2
  let main_v11 : IVec S1024x49152 1 := cmpf .olt main_v9 main_v10
  let main_c_3 : IVec S_ 1 := constantI S_ 1 1#1
  let main_v12 : IVec S_ 1 := (fun x v => Host.reduce IntOp.andi x v reducesTo_S1024x49152_S_d0_1 h_S_) main_v11 main_c_3
  let main_v13 : IVec S_ 1 := andi main_v8 main_v12
  let main_v14 : FVec F S49152 .f32 := Host.absf main_arg3
  let main_cst_4 : FVec F S_ .f32 := constant S_ .f32 0x7F800000#32
  let main_v15 : FVec F S49152 .f32 := broadcastInDim S49152 ![] bcast_S_S49152 main_cst_4
  let main_v16 : IVec S49152 1 := cmpf .olt main_v14 main_v15
  fn_part1 (F := F) main_arg4 main_v13 main_v16
-- ==== Kernel.lean ====
abbrev S64x4096x64 : Shape := ⟨3, ![64, 4096, 64]⟩
abbrev S64x1024 : Shape := ⟨2, ![64, 1024]⟩
abbrev S1024x49152 : Shape := ⟨2, ![1024, 49152]⟩
abbrev S49152 : Shape := ⟨1, ![49152]⟩
abbrev S64 : Shape := ⟨1, ![64]⟩
abbrev S1x49152 : Shape := ⟨2, ![1, 49152]⟩
abbrev S64x49152 : Shape := ⟨2, ![64, 49152]⟩
abbrev S1024x1024 : Shape := ⟨2, ![1024, 1024]⟩
abbrev S1x1024 : Shape := ⟨2, ![1, 1024]⟩
abbrev S64x16384 : Shape := ⟨2, ![64, 16384]⟩
abbrev S64x64x256 : Shape := ⟨3, ![64, 64, 256]⟩
abbrev S64x256x64 : Shape := ⟨3, ![64, 256, 64]⟩
abbrev S1x64 : Shape := ⟨2, ![1, 64]⟩
abbrev S1x1024x64 : Shape := ⟨3, ![1, 1024, 64]⟩
abbrev S1x64x256 : Shape := ⟨3, ![1, 64, 256]⟩
abbrev S1x256x64 : Shape := ⟨3, ![1, 256, 64]⟩
abbrev S64x256 : Shape := ⟨2, ![64, 256]⟩
abbrev S256x64 : Shape := ⟨2, ![256, 64]⟩
abbrev S256 : Shape := ⟨1, ![256]⟩
abbrev S1x256 : Shape := ⟨2, ![1, 256]⟩
abbrev S1024x64 : Shape := ⟨2, ![1024, 64]⟩
abbrev S1024 : Shape := ⟨1, ![1024]⟩
abbrev S1024x1 : Shape := ⟨2, ![1024, 1]⟩
abbrev S1024x256 : Shape := ⟨2, ![1024, 256]⟩

abbrev nBuf : Space → Nat
  | .hbm => 15
  | .vmem => 21
  | .smem => 0
  | _ => 0

abbrev bufTy : (tb : Table) → Fin (tcTables nBuf tb) → BufTy
  | .hbm, ⟨0, _⟩ => ⟨S64x4096x64, .f32⟩
  | .hbm, ⟨1, _⟩ => ⟨S64x1024, .f32⟩
  | .hbm, ⟨2, _⟩ => ⟨S1024x49152, .f32⟩
  | .hbm, ⟨3, _⟩ => ⟨S49152, .f32⟩
  | .hbm, ⟨4, _⟩ => ⟨S64, .f32⟩
  | .hbm, ⟨5, _⟩ => ⟨S1x49152, .f32⟩
  | .hbm, ⟨6, _⟩ => ⟨S64x49152, .f32⟩
  | .hbm, ⟨7, _⟩ => ⟨S64x16384, .f32⟩
  | .hbm, ⟨8, _⟩ => ⟨S64x64x256, .f32⟩
  | .hbm, ⟨9, _⟩ => ⟨S64x16384, .f32⟩
  | .hbm, ⟨10, _⟩ => ⟨S64x64x256, .f32⟩
  | .hbm, ⟨11, _⟩ => ⟨S64x16384, .f32⟩
  | .hbm, ⟨12, _⟩ => ⟨S64x256x64, .f32⟩
  | .hbm, ⟨13, _⟩ => ⟨S1x64, .f32⟩
  | .hbm, ⟨14, _⟩ => ⟨S64x4096x64, .f32⟩
  | .local _ .vmem, ⟨0, _⟩ => ⟨S64x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S64x1024, .f32⟩
  | .local _ .vmem, ⟨6, _⟩ => ⟨S64x1024, .f32⟩
  | .local _ .vmem, ⟨7, _⟩ => ⟨S1x1024x64, .f32⟩
  | .local _ .vmem, ⟨8, _⟩ => ⟨S1x1024x64, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x256x64, .f32⟩
  | .local _ .vmem, ⟨14, _⟩ => ⟨S1x256x64, .f32⟩
  | .local _ .vmem, ⟨15, _⟩ => ⟨S1x64, .f32⟩
  | .local _ .vmem, ⟨16, _⟩ => ⟨S1x1024x64, .f32⟩
  | .local _ .vmem, ⟨17, _⟩ => ⟨S1x1024x64, .f32⟩
  | .local _ .vmem, ⟨18, _⟩ => ⟨S64x256, .f32⟩
  | .local _ .vmem, ⟨19, _⟩ => ⟨S64x256, .f32⟩
  | .local _ .vmem, ⟨20, _⟩ => ⟨S256x64, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![64, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S49152_S1x49152 : S49152.ShapeCasts S1x49152
  inb_S64x1024_S64x1024_0_0 : ∀ a, (![0, 0] : Fin 2 → Nat) a + S64x1024.size a ≤ S64x1024.size a
  h_S64x1024 : 0 < S64x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  slices_S64x49152_S64x16384_0_0 : S64x49152.Slices ![0, 0] S64x16384
  shapeCasts_S64x16384_S64x64x256 : S64x16384.ShapeCasts S64x64x256
  slices_S64x49152_S64x16384_0_16384 : S64x49152.Slices ![0, 16384] S64x16384
  slices_S64x49152_S64x16384_0_32768 : S64x49152.Slices ![0, 32768] S64x16384
  shapeCasts_S64x16384_S64x256x64 : S64x16384.ShapeCasts S64x256x64
  shapeCasts_S64_S1x64 : S64.ShapeCasts S1x64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S64x256_S256 : S64x256.Reduces [0] S256
  shapeCasts_S256_S1x256 : S256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  reduces_S256x64_S64 : S256x64.Reduces [0] S64
  broadcasts_S1x64_S256x64 : S1x64.Broadcasts S256x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S1024x64_S1x1024x64 : S1024x64.ShapeCasts S1x1024x64
  dot_S64x1024_S1024x1024_S64x1024_1_0_0_1_n_n_wf : DotDims.WF S64x1024 S1024x1024 S64x1024 [1] [0] [0] [1] [] []
  dot_S1024x64_S64x256_S1024x256_1_0_0_1_n_n_wf : DotDims.WF S1024x64 S64x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x49152.size a
  hwx0_1 : ∀ i : grid0.Coords, EltTy.bits .f32 = 32 ∨ (Rect.block (s := S1024x49152) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x49152.size a
  hwx0_2 : ∀ i : grid0.Coords, EltTy.bits .f32 = 32 ∨ (Rect.block (s := S1x49152) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x49152.size a
  hwx0_3 : ∀ i : grid0.Coords, EltTy.bits .f32 = 32 ∨ (Rect.block (s := S64x49152) S64x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x4096x64.size a
  hwx1_0 : ∀ i : grid1.Coords, EltTy.bits .f32 = 32 ∨ (Rect.block (s := S64x4096x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256.size a ≤ S64x64x256.size a
  hwx1_1 : ∀ i : grid1.Coords, EltTy.bits .f32 = 32 ∨ (Rect.block (s := S64x64x256) S1x64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x256.size a ≤ S64x64x256.size a
  hwx1_2 : ∀ i : grid1.Coords, EltTy.bits .f32 = 32 ∨ (Rect.block (s := S64x64x256) S1x64x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S64x256x64.size a
  hwx1_3 : ∀ i : grid1.Coords, EltTy.bits .f32 = 32 ∨ (Rect.block (s := S64x256x64) S1x256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x64.size a ≤ S64x4096x64.size a
  hwx1_5 : ∀ i : grid1.Coords, EltTy.bits .f32 = 32 ∨ (Rect.block (s := S64x4096x64) S1x1024x64.size (cc1_transform_5 i) (hinb1_5 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg1) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x4096x64 : Shape := ⟨3, ![64, 4096, 64]⟩
abbrev S64x1024 : Shape := ⟨2, ![64, 1024]⟩
abbrev S1024x49152 : Shape := ⟨2, ![1024, 49152]⟩
abbrev S49152 : Shape := ⟨1, ![49152]⟩
abbrev S64 : Shape := ⟨1, ![64]⟩
abbrev S64x49152 : Shape := ⟨2, ![64, 49152]⟩
abbrev S1x49152 : Shape := ⟨2, ![1, 49152]⟩
abbrev S64x16384 : Shape := ⟨2, ![64, 16384]⟩
abbrev S64x64x256 : Shape := ⟨3, ![64, 64, 256]⟩
abbrev S_ : Shape := ⟨0, ![]⟩
abbrev S64x256 : Shape := ⟨2, ![64, 256]⟩
abbrev S64x1x256 : Shape := ⟨3, ![64, 1, 256]⟩
abbrev S64x256x64 : Shape := ⟨3, ![64, 256, 64]⟩
abbrev S64x64 : Shape := ⟨2, ![64, 64]⟩
abbrev S64x1x64 : Shape := ⟨3, ![64, 1, 64]⟩
abbrev S64x4096 : Shape := ⟨2, ![64, 4096]⟩
abbrev S64x4096x1 : Shape := ⟨3, ![64, 4096, 1]⟩
abbrev S1x1x64 : Shape := ⟨3, ![1, 1, 64]⟩
abbrev S64x4096x256 : Shape := ⟨3, ![64, 4096, 256]⟩

abbrev nBuf : Space → Nat
  | .hbm => 75
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x1024, .f32⟩
  | .hbm, ⟨2, _⟩ => ⟨S1024x49152, .f32⟩
  | .hbm, ⟨3, _⟩ => ⟨S49152, .f32⟩
  | .hbm, ⟨4, _⟩ => ⟨S64, .f32⟩
  | .hbm, ⟨5, _⟩ => ⟨S64x49152, .f32⟩
  | .hbm, ⟨6, _⟩ => ⟨S1x49152, .f32⟩
  | .hbm, ⟨7, _⟩ => ⟨S64x49152, .f32⟩
  | .hbm, ⟨8, _⟩ => ⟨S64x49152, .f32⟩
  | .hbm, ⟨9, _⟩ => ⟨S64x16384, .f32⟩
  | .hbm, ⟨10, _⟩ => ⟨S64x16384, .f32⟩
  | .hbm, ⟨11, _⟩ => ⟨S64x16384, .f32⟩
  | .hbm, ⟨12, _⟩ => ⟨S64x64x256, .f32⟩
  | .hbm, ⟨13, _⟩ => ⟨S64x64x256, .f32⟩
  | .hbm, ⟨14, _⟩ => ⟨S_, .f32⟩
  | .hbm, ⟨15, _⟩ => ⟨S64x256, .f32⟩
  | .hbm, ⟨16, _⟩ => ⟨S64x1x256, .f32⟩
  | .hbm, ⟨17, _⟩ => ⟨S64x1x256, .f32⟩
  | .hbm, ⟨18, _⟩ => ⟨S_, .f32⟩
  | .hbm, ⟨19, _⟩ => ⟨S64x1x256, .f32⟩
  | .hbm, ⟨20, _⟩ => ⟨S64x1x256, .f32⟩
  | .hbm, ⟨21, _⟩ => ⟨S64x64x256, .f32⟩
  | .hbm, ⟨22, _⟩ => ⟨S64x64x256, .f32⟩
  | .hbm, ⟨23, _⟩ => ⟨S64x64x256, .f32⟩
  | .hbm, ⟨24, _⟩ => ⟨S64x64x256, .f32⟩
  | .hbm, ⟨25, _⟩ => ⟨S_, .f32⟩
  | .hbm, ⟨26, _⟩ => ⟨S64x256, .f32⟩
  | .hbm, ⟨27, _⟩ => ⟨S64x1x256, .f32⟩
  | .hbm, ⟨28, _⟩ => ⟨S64x1x256, .f32⟩
  | .hbm, ⟨29, _⟩ => ⟨S_, .f32⟩
  | .hbm, ⟨30, _⟩ => ⟨S64x1x256, .f32⟩
  | .hbm, ⟨31, _⟩ => ⟨S64x1x256, .f32⟩
  | .hbm, ⟨32, _⟩ => ⟨S64x64x256, .f32⟩
  | .hbm, ⟨33, _⟩ => ⟨S64x64x256, .f32⟩
  | .hbm, ⟨34, _⟩ => ⟨S64x256x64, .f32⟩
  | .hbm, ⟨35, _⟩ => ⟨S64x256x64, .f32⟩
  | .hbm, ⟨36, _⟩ => ⟨S_, .f32⟩
  | .hbm, ⟨37, _⟩ => ⟨S64x64, .f32⟩
  | .hbm, ⟨38, _⟩ => ⟨S64x1x64, .f32⟩
  | .hbm, ⟨39, _⟩ => ⟨S64x1x64, .f32⟩
  | .hbm, ⟨40, _⟩ => ⟨S_, .f32⟩
  | .hbm, ⟨41, _⟩ => ⟨S64x1x64, .f32⟩
  | .hbm, ⟨42, _⟩ => ⟨S64x1x64, .f32⟩
  | .hbm, ⟨43, _⟩ => ⟨S64x256x64, .f32⟩
  | .hbm, ⟨44, _⟩ => ⟨S64x256x64, .f32⟩
  | .hbm, ⟨45, _⟩ => ⟨S64x4096x64, .f32⟩
  | .hbm, ⟨46, _⟩ => ⟨S_, .f32⟩
  | .hbm, ⟨47, _⟩ => ⟨S64x4096, .f32⟩
  | .hbm, ⟨48, _⟩ => ⟨S64x4096x1, .f32⟩
  | .hbm, ⟨49, _⟩ => ⟨S_, .f32⟩
  | .hbm, ⟨50, _⟩ => ⟨S64x4096x1, .f32⟩
  | .hbm, ⟨51, _⟩ => ⟨S64x4096x1, .f32⟩
  | .hbm, ⟨52, _⟩ => ⟨S_, .f32⟩
  | .hbm, ⟨53, _⟩ => ⟨S64x4096x1, .f32⟩
  | .hbm, ⟨54, _⟩ => ⟨S64x4096x1, .f32⟩
  | .hbm, ⟨55, _⟩ => ⟨S64x4096x1, .f32⟩
  | .hbm, ⟨56, _⟩ => ⟨S64x4096x64, .f32⟩
  | .hbm, ⟨57, _⟩ => ⟨S64x4096x64, .f32⟩
  | .hbm, ⟨58, _⟩ => ⟨S1x1x64, .f32⟩
  | .hbm, ⟨59, _⟩ => ⟨S64x4096x64, .f32⟩
  | .hbm, ⟨60, _⟩ => ⟨S64x4096x64, .f32⟩
  | .hbm, ⟨61, _⟩ => ⟨S64x4096x256, .f32⟩
  | .hbm, ⟨62, _⟩ => ⟨S64x4096x256, .f32⟩
  | .hbm, ⟨63, _⟩ => ⟨S64x4096x256, .f32⟩
  | .hbm, ⟨64, _⟩ => ⟨S64x4096x256, .f32⟩
  | .hbm, ⟨65, _⟩ => ⟨S_, .f32⟩
  | .hbm, ⟨66, _⟩ => ⟨S64x4096x256, .f32⟩
  | .hbm, ⟨67, _⟩ => ⟨S64x4096x256, .f32⟩
  | .hbm, ⟨68, _⟩ => ⟨S_, .f32⟩
  | .hbm, ⟨69, _⟩ => ⟨S64x4096x256, .f32⟩
  | .hbm, ⟨70, _⟩ => ⟨S64x4096x256, .f32⟩
  | .hbm, ⟨71, _⟩ => ⟨S64x4096x256, .f32⟩
  | .hbm, ⟨72, _⟩ => ⟨S64x4096x256, .f32⟩
  | .hbm, ⟨73, _⟩ => ⟨S64x4096x64, .f32⟩
  | .hbm, ⟨74, _⟩ => ⟨S64x4096x64, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  bcast_S49152_S1x49152_1 : S49152.BroadcastsInDim S1x49152 (![1] : Fin 1 → Fin S1x49152.rank)
  bcast_S1x49152_S64x49152_0_1 : S1x49152.BroadcastsInDim S64x49152 (![0, 1] : Fin 2 → Fin S64x49152.rank)
  slices_S64x49152_S64x16384_0_0 : S64x49152.Slices ![0, 0] S64x16384
  slices_S64x49152_S64x16384_0_16384 : S64x49152.Slices ![0, 16384] S64x16384
  slices_S64x49152_S64x16384_0_32768 : S64x49152.Slices ![0, 32768] S64x16384
  shapeCasts_S64x16384_S64x64x256 : S64x16384.ShapeCasts S64x64x256
  reducesTo_S64x64x256_S64x256_d1 : S64x64x256.ReducesTo [1] S64x256
  h_S_ : 0 < S_.numel
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S64x1x256_S64x64x256_0_1_2 : S64x1x256.BroadcastsInDim S64x64x256 (![0, 1, 2] : Fin 3 → Fin S64x64x256.rank)
  shapeCasts_S64x16384_S64x256x64 : S64x16384.ShapeCasts S64x256x64
  reducesTo_S64x256x64_S64x64_d1 : S64x256x64.ReducesTo [1] S64x64
  bcast_S64x64_S64x1x64_0_2 : S64x64.BroadcastsInDim S64x1x64 (![0, 2] : Fin 2 → Fin S64x1x64.rank)
  bcast_S_S64x1x64 : S_.BroadcastsInDim S64x1x64 (![] : Fin 0 → Fin S64x1x64.rank)
  bcast_S64x1x64_S64x256x64_0_1_2 : S64x1x64.BroadcastsInDim S64x256x64 (![0, 1, 2] : Fin 3 → Fin S64x256x64.rank)
  reducesTo_S64x4096x64_S64x4096_d2 : S64x4096x64.ReducesTo [2] S64x4096
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x64_0_1_2 : S64x4096x1.BroadcastsInDim S64x4096x64 (![0, 1, 2] : Fin 3 → Fin S64x4096x64.rank)
  bcast_S64_S1x1x64_2 : S64.BroadcastsInDim S1x1x64 (![2] : Fin 1 → Fin S1x1x64.rank)
  bcast_S1x1x64_S64x4096x64_0_1_2 : S1x1x64.BroadcastsInDim S64x4096x64 (![0, 1, 2] : Fin 3 → Fin S64x4096x64.rank)
  bcast_S_S64x4096x256 : S_.BroadcastsInDim S64x4096x256 (![] : Fin 0 → Fin S64x4096x256.rank)
  dot_S64x1024_S1024x49152_S64x49152_1_0_0_1_n_n_wf : DotDims.WF S64x1024 S1024x49152 S64x49152 [1] [0] [0] [1] [] []
  dot_S64x4096x64_S64x64x256_S64x4096x256_2_1_1_2_0_0_wf : DotDims.WF S64x4096x64 S64x64x256 S64x4096x256 [2] [1] [1] [2] [0] [0]
  dot_S64x4096x256_S64x256x64_S64x4096x64_2_1_1_2_0_0_wf : DotDims.WF S64x4096x256 S64x256x64 S64x4096x64 [2] [1] [1] [2] [0] [0]

variable [Facts₀]

def dot_S64x1024_S1024x49152_S64x49152_1_0_0_1_n_n : DotDims S64x1024 S1024x49152 S64x49152 where
  lhsContracting := [1]
  rhsContracting := [0]
  lhsNonContracting := [0]
  rhsNonContracting := [1]
  lhsBatch := []
  rhsBatch := []
  wf := dot_S64x1024_S1024x49152_S64x49152_1_0_0_1_n_n_wf
def dot_S64x4096x64_S64x64x256_S64x4096x256_2_1_1_2_0_0 : DotDims S64x4096x64 S64x64x256 S64x4096x256 where
  lhsContracting := [2]
  rhsContracting := [1]
  lhsNonContracting := [1]
  rhsNonContracting := [2]
  lhsBatch := [0]
  rhsBatch := [0]
  wf := dot_S64x4096x64_S64x64x256_S64x4096x256_2_1_1_2_0_0_wf
def dot_S64x4096x256_S64x256x64_S64x4096x64_2_1_1_2_0_0 : DotDims S64x4096x256 S64x256x64 S64x4096x64 where
  lhsContracting := [2]
  rhsContracting := [1]
  lhsNonContracting := [1]
  rhsNonContracting := [2]
  lhsBatch := [0]
  rhsBatch := [0]
  wf := dot_S64x4096x256_S64x256x64_S64x4096x64_2_1_1_2_0_0_wf

class Facts : Prop extends Facts₀ where

variable [Facts]
-- ==== Proof.KI.FrA.lean ====
/-
  The first kernel region, the hypernetwork product, at any float family: what one grid point does and what the
  pipeline may assume of it.

  The region has 48 points; point `t` sees the whole `s` (64 × 1024), the `t`-th block of 1024 columns of `W`
  (1024 × 1024) and of the bias row (1 × 1024), and stores ONE value over its whole output block (64 × 1024): the
  product of the first two plus the bias row laid under every row. Its inputs are left as found. So after the body
  every input buffer still holds its block and the output buffer holds that one stored value; nothing is kept between
  points, nothing is owed. Everything is stated at a parameter `V`, the contents of the core's buffers when the region
  is entered.
-/
import proofs.«143842_j63823214019112_1_alg».proof.Proof.Gen.KernelIdeal.Launch
import proofs.«143842_j63823214019112_1_alg».proof.Proof.Gen.KernelIdeal.Skeleton
import proofs.«143842_j63823214019112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched the
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched the
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rS : Rect S64x1024 := Rect.unit (s := S64x1024) ![0, 0] S64x1024.size inb_S64x1024_S64x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output block after the body, from the three input blocks: its one store, the product plus the bias row. -/
def out0_3 (x0 : Vec F S64x1024 .f32) (x1 : Vec F S1024x1024 .f32) (x2 : Vec F S1x1024 .f32) : Vec F S64x1024 .f32 :=
  View.canon [⟨rS, k0_pay1 (View.ld x0 rS) (View.ld x1 rW) (View.ld x2 rB)⟩]

/-- That store is over the whole block, so it covers it. -/
theorem cover0_3 (p0 : Vec F S64x1024 .f32) (y : S64x1024.Idx) :
    ∃ pc ∈ ([⟨rS, p0⟩] : List (View.Piece (Elt F) S64x1024 .f32)), y ∈ pc.1.set :=
  View.cover_of_tiled [⟨rS, p0⟩] S64x1024.size (by rfl) y

/-! ## The body's triple -/

set_option maxHeartbeats 1000000 in
/-- On whole staging memrefs, the inputs' at contents `x0 x1 x2` and the output's at anything, the body runs to the
    continuation with the inputs' as they were and the output's at `out0_3 x0 x1 x2`. -/
theorem sound_kernel0 (c : Dev nD) (E : Set ℕ) (i : grid0.Coords) (arg1 : Memref sig .tc .vmem S64x1024 .f32) (harg1 : arg1.IsWhole)
    (arg2 : Memref sig .tc .vmem S1024x1024 .f32) (harg2 : arg2.IsWhole) (arg3 : Memref sig .tc .vmem S1x1024 .f32) (harg3 : arg3.IsWhole)
    (arg4 : Memref sig .tc .vmem S64x1024 .f32) (harg4 : arg4.IsWhole)
    (x0 : Vec F S64x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__hyper_kernel i arg1 harg1 arg2 harg2 arg3 harg3 arg4 harg4) K := by
  simp only [cc0__hyper_kernel_eq_skeleton]; unfold cc0__hyper_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- On core `c`: the arrays as the region finds them; after the body at point `t` each input's buffer at its block and
    the output's at `out0_3` of the three input blocks; the invariant only what the body never touches (the other
    scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.FrB0.lean ====
/-
  The second kernel region, the gated unit, at any float family: the vocabulary its two cases are stated over.

  The region has 64 × 4 points, point `t` being token tile `t % 4` of sample `t / 4`. The body sees one tile of 1024
  tokens, the sample's three weight matrices and the scale row, and keeps THREE buffers of its own between points: at a
  sample's first tile (`t % 4 = 0`) it normalises the three matrices into them, and at every tile it reads them back.
  Here: each window's block at a point; that an input's buffer holds its block whether or not the pipeline fetched it
  there; the branch condition in closed form over the 256 points; the three kept buffers as memrefs; and the region's
  plain invariant (everything scoped that is no staging buffer of this region, at anything) opened into the seven
  staging buffers of the other region and the three kept buffers.
-/
import proofs.«143842_j63823214019112_1_alg».proof.Proof.Gen.KernelIdeal.Launch
import proofs.«143842_j63823214019112_1_alg».proof.Proof.Gen.KernelIdeal.Skeleton
import proofs.«143842_j63823214019112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched the
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched the
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched the
    block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched the
    block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's one branch -/

/-- The body's `if`: the tile coordinate is zero (the printed scalar chain over the grid coordinates). -/
abbrev cond1_0 (i : grid1.Coords) : Prop := (Scalar.cmpi .ne (Scalar.extui (Scalar.cmpi .eq (BitVec.ofNat 32 (i 1).val) 0#32)) 0#32) = 1#1
/-- It holds exactly at the points that are ≡ 0 (mod 4): a sample's first tile. Decided over the 256 points. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The memrefs the body is called with -/

/-- One staging buffer of the output window, through which its contents are stated (which one does not matter). -/
abbrev VO1_5 : View sig .tc .vmem S1x1024x64 .f32 := (Memref.whole cc1_stg5_0 : Memref sig .tc .vmem S1x1024x64 .f32).view
abbrev ms1_0 (t : Fin cfg1.N) : Memref sig .tc .vmem S1x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x64 .f32 := win1_5.stage (cfg1.slots t 5)
abbrev hs1_5 (t : Fin cfg1.N) : (ms1_5 t).IsWhole := hstage1_5 ((cfg1.slots t 5).cast nbuf1_5)
/-- The three buffers the body keeps between points: whole scoped buffers of its own, passed beside the windows. -/
abbrev scM1_0 : Memref sig .tc .vmem S64x256 .f32 := Memref.whole cc1_scratch0
abbrev scM1_1 : Memref sig .tc .vmem S64x256 .f32 := Memref.whole cc1_scratch1
abbrev scM1_2 : Memref sig .tc .vmem S256x64 .f32 := Memref.whole cc1_scratch2
/-- The same as views: what each holds is stated through them. -/
abbrev VS1_0 : View sig .tc .vmem S64x256 .f32 := scM1_0.view
abbrev VS1_1 : View sig .tc .vmem S64x256 .f32 := scM1_1.view
abbrev VS1_2 : View sig .tc .vmem S256x64 .f32 := scM1_2.view

/-! ## The plain invariant, opened -/

/-- A scoped buffer of the core held whole at some contents. -/
abbrev anyBuf (c : Dev nD) (b : Ref sig .tc) : sProp 𝕄 :=
  iprop(∃ f : Buf (Elt F) ((c : Thread nD τ).loc b), ((c : Thread nD τ).loc b) ↦{fullShare} f)

/-- The region's plain invariant is: the other region's seven staging buffers at anything, the three kept buffers as
    memrefs owned at anything, and the generator register at some state. -/
theorem PhiA1_eq (c : Dev nD) :
    (Pipeline.ΦA spec1 c : sProp 𝕄)
      = iprop(iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Fr

end
-- ==== Proof.KI.FrB1.lean ====
/-
  The gated unit's body at a sample's FIRST tile (the branch taken), at any float family.

  There the body loads the sample's three weight matrices, stores each one normalised into the buffer it keeps for it,
  reads the three back, loads the token tile and the scale row, and stores the result over its whole output block. What
  each written buffer ends with is recorded as the list of its stores (last first); the inputs are left as found.
-/
import proofs.«143842_j63823214019112_1_alg».proof.Proof.KI.FrB0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block and in each kept buffer at a first tile, WITH the proof that on whole
    memrefs — the five inputs' at contents `x0 … x4`, the output's and the three kept buffers' at anything — the body runs
    to the continuation holding the inputs' as they were and each written buffer with those stores written. -/
noncomputable def kernelRun1_A (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i)
    (x0 : Vec F S1x1024x64 .f32) (x1 : Vec F S1x64x256 .f32) (x2 : Vec F S1x64x256 .f32) (x3 : Vec F S1x256x64 .f32) (x4 : Vec F S1x64 .f32) :
    Σ' (L5 : List (View.Piece (Elt F) S1x1024x64 .f32)) (LS0 : List (View.Piece (Elt F) S64x256 .f32)) (LS1 : List (View.Piece (Elt F) S64x256 .f32)), { LS2 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__glu_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__glu_kernel_eq_skeleton]; unfold cc1__glu_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Fr

end
-- ==== Proof.KI.FrB2.lean ====
/-
  The gated unit's body at a sample's LATER tiles (the branch not taken), at any float family.

  There the body only reads the three buffers it keeps — they hold what the sample's first tile stored — together with
  the token tile and the scale row, and stores the result over its whole output block. The kept buffers and the five
  inputs are left as found; what the output block ends with is recorded as the list of its stores.
-/
import proofs.«143842_j63823214019112_1_alg».proof.Proof.KI.FrB1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block at a later tile, WITH the proof that on whole memrefs — the five
    inputs' at contents `x0 … x4`, the three kept buffers' at `xs0 xs1 xs2`, the output's at anything — the body runs to the
    continuation holding the inputs' and the kept buffers' as they were and the output's with those stores written. -/
noncomputable def kernelRun1_B (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : ¬cond1_0 i)
    (x0 : Vec F S1x1024x64 .f32) (x1 : Vec F S1x64x256 .f32) (x2 : Vec F S1x64x256 .f32) (x3 : Vec F S1x256x64 .f32) (x4 : Vec F S1x64 .f32)
    (xs0 : Vec F S64x256 .f32) (xs1 : Vec F S64x256 .f32) (xs2 : Vec F S256x64 .f32) :
    { L5 : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc1__glu_kernel i arg2 harg2 arg3 harg3 arg4 harg4 arg5 harg5 arg6 harg6 arg7 harg7 arg8 harg8 arg9 harg9 arg10 harg10) K } := by
  refine ⟨?_, fun E K => ?run⟩
  case run =>
    simp only [cc1__glu_kernel_eq_skeleton]; unfold cc1__glu_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Fr

end
-- ==== Proof.KI.FrB.lean ====
/-
  The gated unit's region at any float family: what its buffers hold point by point, and the pipeline's obligation.

  At a sample's first tile the body fills the three buffers it keeps and stores the output block; at the three later
  tiles it leaves the kept buffers alone and stores the output block from them. So what the four hold after point `n` is
  a recursion on `n`: the first-tile case from the point's own blocks, the later-tile case from the point's blocks and the
  kept buffers as the point before left them. The region's invariant carries the kept buffers at exactly those contents
  from one point to the next (before the first point: at anything). With that, each point's obligation is the matching
  case's run.
-/
import proofs.«143842_j63823214019112_1_alg».proof.Proof.KI.FrB2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first tile the stores into the output block cover it. -/
theorem cover1_A_5 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) (y : S1x1024x64.Idx) :
    ∃ pc ∈ (kernelRun1_A c i arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4).1 S1x1024x64.size (by sl_kernel_rfl) y
/-- What a first tile leaves in the output block: its stores read back. -/
def out1_A_5 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) : Vec F S1x1024x64 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 x0 x1 x2 x3 x4).1)
/-- At a first tile the stores into the first kept buffer cover it. -/
theorem scover1_A_0 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) (y : S64x256.Idx) :
    ∃ pc ∈ (kernelRun1_A c i arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4).2.1 S64x256.size (by sl_kernel_rfl) y
/-- What a first tile leaves in the first kept buffer. -/
def sout1_A_0 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) : Vec F S64x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 x0 x1 x2 x3 x4).2.1)
/-- At a first tile the stores into the second kept buffer cover it. -/
theorem scover1_A_1 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) (y : S64x256.Idx) :
    ∃ pc ∈ (kernelRun1_A c i arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4).2.2.1 S64x256.size (by sl_kernel_rfl) y
/-- What a first tile leaves in the second kept buffer. -/
def sout1_A_1 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) : Vec F S64x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 x0 x1 x2 x3 x4).2.2.1)
/-- At a first tile the stores into the third kept buffer cover it. -/
theorem scover1_A_2 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) (y : S256x64.Idx) :
    ∃ pc ∈ (kernelRun1_A c i arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4).2.2.2.1 S256x64.size (by sl_kernel_rfl) y
/-- What a first tile leaves in the third kept buffer. -/
def sout1_A_2 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) : Vec F S256x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 x0 x1 x2 x3 x4).2.2.2.1)
/-- At a later tile the stores into the output block cover it. -/
theorem cover1_B_5 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : ¬cond1_0 i) (x0 : Vec F S1x1024x64 .f32) (x1 : Vec F S1x64x256 .f32) (x2 : Vec F S1x64x256 .f32) (x3 : Vec F S1x256x64 .f32) (x4 : Vec F S1x64 .f32) (xs0 : Vec F S64x256 .f32) (xs1 : Vec F S64x256 .f32) (xs2 : Vec F S256x64 .f32) (y : S1x1024x64.Idx) :
    ∃ pc ∈ (kernelRun1_B c i arg2 harg2 arg3 harg3 arg4 harg4 arg5 harg5 arg6 harg6 arg7 harg7 arg8 harg8 arg9 harg9 arg10 harg10 hc0 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 xs0 xs1 xs2).1 S1x1024x64.size (by sl_kernel_rfl) y
/-- What a later tile leaves in the output block. -/
def out1_B_5 (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : ¬cond1_0 i) (x0 : Vec F S1x1024x64 .f32) (x1 : Vec F S1x64x256 .f32) (x2 : Vec F S1x64x256 .f32) (x3 : Vec F S1x256x64 .f32) (x4 : Vec F S1x64 .f32) (xs0 : Vec F S64x256 .f32) (xs1 : Vec F S64x256 .f32) (xs2 : Vec F S256x64 .f32) : Vec F S1x1024x64 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 x0 x1 x2 x3 x4 xs0 xs1 xs2).1)

section
variable (V : (c : Dev nD) → (b : Ref sig .tc) → Buf (Elt F) ((c : Thread nD τ).loc b))

/-! ## Point by point -/

/-- The output block and the three kept buffers after a first tile `t`: from the point's own blocks. -/
def caseA (c : Dev nD) (t : Fin cfg1.N) (h0 : t.val % 4 = 0) : Vec F S1x1024x64 .f32 × Vec F S64x256 .f32 × Vec F S64x256 .f32 × Vec F S256x64 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t))

/-- The same after a later tile `t`, the kept buffers having come in at `xs0 xs1 xs2`: they go out as they came. -/
def caseB (c : Dev nD) (t : Fin cfg1.N) (h0 : ¬t.val % 4 = 0) (xs0 : Vec F S64x256 .f32) (xs1 : Vec F S64x256 .f32) (xs2 : Vec F S256x64 .f32) : Vec F S1x1024x64 .f32 × Vec F S64x256 .f32 × Vec F S64x256 .f32 × Vec F S256x64 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) xs0 xs1 xs2, xs0, xs1, xs2)

/-- What the output block and the three kept buffers hold after the body at position `n`. -/
def outsAt1 (c : Dev nD) : (n : ℕ) → n < cfg1.N → Vec F S1x1024x64 .f32 × Vec F S64x256 .f32 × Vec F S64x256 .f32 × Vec F S256x64 .f32
  | 0, hn => caseA V c ⟨0, hn⟩ (Nat.zero_mod _)
  | n + 1, hn =>
    if h0 : (n + 1) % 4 = 0 then caseA V c ⟨n + 1, hn⟩ h0
    else caseB V c ⟨n + 1, hn⟩ h0 (outsAt1 c n (Nat.lt_of_succ_lt hn)).2.1 (outsAt1 c n (Nat.lt_of_succ_lt hn)).2.2.1 (outsAt1 c n (Nat.lt_of_succ_lt hn)).2.2.2

/-- At a first tile: that case's contents. -/
theorem outsAt1_A (c : Dev nD) (t : Fin cfg1.N) (h0 : t.val % 4 = 0) : outsAt1 V c t.val t.isLt = caseA V c t h0 := by
  obtain ⟨n, hn⟩ := t
  cases n with
  | zero => exact rfl
  | succ n => exact (dif_pos h0).trans rfl

/-- At a later tile: that case's contents, over what the point before left in the kept buffers. -/
theorem outsAt1_B (c : Dev nD) (t : Fin cfg1.N) (h0 : ¬t.val % 4 = 0) :
    outsAt1 V c t.val t.isLt = caseB V c t h0 (outsAt1 V c (t.val - 1) (Nat.lt_of_le_of_lt (Nat.sub_le _ _) t.isLt)).2.1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-! ## The invariant -/

/-- The region's invariant before position `n`: before the first point the plain one (every scoped buffer of the rest at
    anything); afterwards the other region's staging buffers at anything, each kept buffer at what the point before left
    in it, and the generator register at some state. -/
def PhiS (c : Dev nD) : (n : ℕ) → n ≤ cfg1.N → sProp 𝕄
  | 0, _ => Pipeline.ΦA spec1 c
  | n + 1, hn => iprop(iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The region's proof data -/

/-- On core `c`: the arrays as the region finds them; after the body at point `t` each input's buffer at its block and the
    output's at the recursion's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point. The inputs' memrefs hold their blocks; the closed form says which case the point is in; the
    invariant hands the body the kept buffers at what the point before left (at anything before the first point) and
    takes them back at this point's contents; what the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  by_cases h0 : t.val % 4 = 0
  · rw [outsAt1_A V c t h0]
    unfold caseA out1_A_5 sout1_A_0 sout1_A_1 sout1_A_2; (try dsimp only)
    by_cases hz : t.val = 0
    · rw [PhiS_castSucc V c t, PhiS_zero V c _ _ hz, PhiA1_eq]
      iintro ⟨⟨⟨T0, T1, T2, T3, T4, T5, T6, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [T0 T1 T2 T3 T4 T5 T6 HS0 HS1 HS2 Hg]
      · isplitr [Hg]
        · isplitl [T0]; · iexact T0
          isplitl [T1]; · iexact T1
          isplitl [T2]; · iexact T2
          isplitl [T3]; · iexact T3
          isplitl [T4]; · iexact T4
          isplitl [T5]; · iexact T5
          isplitl [T6]; · iexact T6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _ _ _ _ _)
    · rw [PhiS_castSucc V c t, PhiS_pos V c _ _ hz]
      iintro ⟨⟨⟨T0, T1, T2, T3, T4, T5, T6, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexists _; iexact HS2
      iintro ⟨H0, H1, H2, H3, H4, ⟨%e5, H5⟩, ⟨%es0, HS0⟩, ⟨%es1, HS1⟩, ⟨%es2, HS2⟩⟩
      isplitl [T0 T1 T2 T3 T4 T5 T6 HS0 HS1 HS2 Hg]
      · isplitr [Hg]
        · isplitl [T0]; · iexact T0
          isplitl [T1]; · iexact T1
          isplitl [T2]; · iexact T2
          isplitl [T3]; · iexact T3
          isplitl [T4]; · iexact T4
          isplitl [T5]; · iexact T5
          isplitl [T6]; · iexact T6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _ _ _ _ _)
  · rw [outsAt1_B V c t h0]
    unfold caseB out1_B_5; (try dsimp only)
    have hz : t.val ≠ 0 := fun e => h0 (by rw [e])
    rw [PhiS_castSucc V c t, PhiS_pos V c _ _ hz]
    iintro ⟨⟨⟨T0, T1, T2, T3, T4, T5, T6, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) _ _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, HS0, HS1, HS2⟩
    isplitl [T0 T1 T2 T3 T4 T5 T6 HS0 HS1 HS2 Hg]
    · isplitr [Hg]
      · isplitl [T0]; · iexact T0
        isplitl [T1]; · iexact T1
        isplitl [T2]; · iexact T2
        isplitl [T3]; · iexact T3
        isplitl [T4]; · iexact T4
        isplitl [T5]; · iexact T5
        isplitl [T6]; · iexact T6
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: what the kept buffers hold is forgotten. -/
theorem hout1 (c : Dev nD) : (dat1 V c).Φ (Fin.last cfg1.N) ⊢ Pipeline.ΦA spec1 c := by
  have hN : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl,
    PhiS_pos V c _ _ hN, PhiA1_eq]
  iintro ⟨⟨T0, T1, T2, T3, T4, T5, T6, HS0, HS1, HS2⟩, Hg⟩
  isplitr [Hg]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [HS0]; · iexists _; iexact HS0
    isplitl [HS1]; · iexists _; iexact HS1
    iexists _; iexact HS2
  iexact Hg

end

end Cert.KernelIdeal.Fr

end
-- ==== Proof.KI.FrRun.lean ====
/-
  The whole program's run, at any float family: @main is a reshape, the hypernetwork region, seven slices and reshapes,
  and the gated-unit region, and every weakly fair execution of it terminates with every unscoped buffer at contents
  named here.

  The contents are a fold through @main from the launch memory: a stretch of host operations applies them; a region
  leaves each of its windows' arrays at what its write-backs produce (its inputs as entered) and every other buffer as
  entered. Each region is entered from "every unscoped buffer at the boundary's contents, the generator register at some
  state, nothing owed" and left at the same with the next boundary's contents: its arrays are split out of the unscoped
  buffers on the way in and put back on the way out, and the generator register goes into the region's invariant and
  comes back. From the last boundary one reads that the five arguments end as launched, and what the result array holds.
-/
import proofs.«143842_j63823214019112_1_alg».proof.Proof.KI.FrA
import proofs.«143842_j63823214019112_1_alg».proof.Proof.KI.FrB
import proofs.«143842_j63823214019112_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev Wv0 : Dev nD → Valuation τ sig (Elt F) := fun c b => m (c, b)
/-- After the first host stretch (the hypernetwork region's entry). -/
abbrev Wv1 : Dev nD → Valuation τ sig (Elt F) := fun c => StableHlo.after hostOps0 (Wv0 m c)
/-- The same read at the core's references. -/
abbrev Rv1 : (c : Dev nD) → (b : Ref sig .tc) → Buf (Elt F) ((c : Thread nD τ).loc b) := fun c b => Wv1 m c b
/-- At the hypernetwork region's exit: its arrays at what the pipeline leaves, every other buffer as entered. -/
def Wv2 (c : Dev nD) : Valuation τ sig (Elt F) :=
  Pipeline.withArrays spec0 c (Wv1 m c) fun w => (dat0 (Rv1 m) c).arrAt w cfg0.N
theorem Wv2_arr (c : Dev nD) (w : Fin cfg0.W) :
    Wv2 m c (Proc.devRef .tc (Pipeline.arrRef spec0 w)) = (dat0 (Rv1 m) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m c (Proc.devRef .tc b) = Wv1 m c (Proc.devRef .tc b) := by
  unfold Wv2; exact Pipeline.withArrays_of_ne spec0 c _ _ b hb
abbrev Rv2 : (c : Dev nD) → (b : Ref sig .tc) → Buf (Elt F) ((c : Thread nD τ).loc b) := fun c b => Wv2 m c b
theorem hF0 (c : Dev nD) (w : Fin cfg0.W) : (dat0 (Rv1 m) c).arrAt w cfg0.N = Rv2 m c (Pipeline.arrRef spec0 w) :=
  (Wv2_arr m c w).symm
theorem hrest0 (c : Dev nD) : ∀ b, b ∉ Finset.univ.image (Pipeline.arrRef spec0) → Rv2 m c b = Rv1 m c b :=
  fun b hb => Wv2_of_ne m c b fun w e => hb (Finset.mem_image.mpr ⟨w, Finset.mem_univ _, e⟩)

/-- After the second host stretch (the gated unit's entry). -/
abbrev Wv3 : Dev nD → Valuation τ sig (Elt F) := fun c => StableHlo.after hostOps1 (Wv2 m c)
abbrev Rv3 : (c : Dev nD) → (b : Ref sig .tc) → Buf (Elt F) ((c : Thread nD τ).loc b) := fun c b => Wv3 m c b
/-- At the gated unit's exit: its arrays at what the pipeline leaves, every other buffer as entered. -/
def Wv4 (c : Dev nD) : Valuation τ sig (Elt F) :=
  Pipeline.withArrays spec1 c (Wv3 m c) fun w => (dat1 (Rv3 m) c).arrAt w cfg1.N
theorem Wv4_arr (c : Dev nD) (w : Fin cfg1.W) :
    Wv4 m c (Proc.devRef .tc (Pipeline.arrRef spec1 w)) = (dat1 (Rv3 m) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m c (Proc.devRef .tc b) = Wv3 m c (Proc.devRef .tc b) := by
  unfold Wv4; exact Pipeline.withArrays_of_ne spec1 c _ _ b hb
abbrev Rv4 : (c : Dev nD) → (b : Ref sig .tc) → Buf (Elt F) ((c : Thread nD τ).loc b) := fun c b => Wv4 m c b
theorem hF1 (c : Dev nD) (w : Fin cfg1.W) : (dat1 (Rv3 m) c).arrAt w cfg1.N = Rv4 m c (Pipeline.arrRef spec1 w) :=
  (Wv4_arr m c w).symm
theorem hrest1 (c : Dev nD) : ∀ b, b ∉ Finset.univ.image (Pipeline.arrRef spec1) → Rv4 m c b = Rv3 m c b :=
  fun b hb => Wv4_of_ne m c b fun w e => hb (Finset.mem_image.mpr ⟨w, Finset.mem_univ _, e⟩)

/-! ## The arguments end as launched

No host operation writes an argument and no region's write-backs reach one: a region reads an argument through an input
window (whose array ends as entered) or not at all. -/

/-- The token array: an input window of the gated unit, untouched by everything else. -/
theorem Wv4_main_arg0 (c : Dev nD) : Wv4 m c (Proc.devRef .tc main_arg0) = m ((c : Thread nD τ).loc main_arg0) :=
  calc Wv4 m c (Proc.devRef .tc main_arg0)
    _ = Wv3 m c (Proc.devRef .tc main_arg0) := (Wv4_arr m c 0).trans (((dat1 (Rv3 m) c).arrAt_in 0 rfl _).trans (A_eq1 (Rv3 m) c 0))
    _ = Wv2 m c (Proc.devRef .tc main_arg0) := StableHlo.after_of_writes_sub hostOps1 _ hostOps1_writes (by decide)
    _ = Wv1 m c (Proc.devRef .tc main_arg0) := Wv2_of_ne m c main_arg0 (by decide)
    _ = Wv0 m c (Proc.devRef .tc main_arg0) := StableHlo.after_of_writes_sub hostOps0 _ hostOps0_writes (by decide)
    _ = m ((c : Thread nD τ).loc main_arg0) := rfl
/-- `s`: an input window of the hypernetwork region. -/
theorem Wv4_main_arg1 (c : Dev nD) : Wv4 m c (Proc.devRef .tc main_arg1) = m ((c : Thread nD τ).loc main_arg1) :=
  calc Wv4 m c (Proc.devRef .tc main_arg1)
    _ = Wv3 m c (Proc.devRef .tc main_arg1) := Wv4_of_ne m c main_arg1 (by decide)
    _ = Wv2 m c (Proc.devRef .tc main_arg1) := StableHlo.after_of_writes_sub hostOps1 _ hostOps1_writes (by decide)
    _ = Wv1 m c (Proc.devRef .tc main_arg1) := (Wv2_arr m c 0).trans (((dat0 (Rv1 m) c).arrAt_in 0 rfl _).trans (A_eq0 (Rv1 m) c 0))
    _ = Wv0 m c (Proc.devRef .tc main_arg1) := StableHlo.after_of_writes_sub hostOps0 _ hostOps0_writes (by decide)
    _ = m ((c : Thread nD τ).loc main_arg1) := rfl
/-- `W`: an input window of the hypernetwork region. -/
theorem Wv4_main_arg2 (c : Dev nD) : Wv4 m c (Proc.devRef .tc main_arg2) = m ((c : Thread nD τ).loc main_arg2) :=
  calc Wv4 m c (Proc.devRef .tc main_arg2)
    _ = Wv3 m c (Proc.devRef .tc main_arg2) := Wv4_of_ne m c main_arg2 (by decide)
    _ = Wv2 m c (Proc.devRef .tc main_arg2) := StableHlo.after_of_writes_sub hostOps1 _ hostOps1_writes (by decide)
    _ = Wv1 m c (Proc.devRef .tc main_arg2) := (Wv2_arr m c 1).trans (((dat0 (Rv1 m) c).arrAt_in 1 rfl _).trans (A_eq0 (Rv1 m) c 1))
    _ = Wv0 m c (Proc.devRef .tc main_arg2) := StableHlo.after_of_writes_sub hostOps0 _ hostOps0_writes (by decide)
    _ = m ((c : Thread nD τ).loc main_arg2) := rfl
/-- The bias: only reshaped by the host. -/
theorem Wv4_main_arg3 (c : Dev nD) : Wv4 m c (Proc.devRef .tc main_arg3) = m ((c : Thread nD τ).loc main_arg3) :=
  calc Wv4 m c (Proc.devRef .tc main_arg3)
    _ = Wv3 m c (Proc.devRef .tc main_arg3) := Wv4_of_ne m c main_arg3 (by decide)
    _ = Wv2 m c (Proc.devRef .tc main_arg3) := StableHlo.after_of_writes_sub hostOps1 _ hostOps1_writes (by decide)
    _ = Wv1 m c (Proc.devRef .tc main_arg3) := Wv2_of_ne m c main_arg3 (by decide)
    _ = Wv0 m c (Proc.devRef .tc main_arg3) := StableHlo.after_of_writes_sub hostOps0 _ hostOps0_writes (by decide)
    _ = m ((c : Thread nD τ).loc main_arg3) := rfl
/-- The scale: only reshaped by the host. -/
theorem Wv4_main_arg4 (c : Dev nD) : Wv4 m c (Proc.devRef .tc main_arg4) = m ((c : Thread nD τ).loc main_arg4) :=
  calc Wv4 m c (Proc.devRef .tc main_arg4)
    _ = Wv3 m c (Proc.devRef .tc main_arg4) := Wv4_of_ne m c main_arg4 (by decide)
    _ = Wv2 m c (Proc.devRef .tc main_arg4) := StableHlo.after_of_writes_sub hostOps1 _ hostOps1_writes (by decide)
    _ = Wv1 m c (Proc.devRef .tc main_arg4) := Wv2_of_ne m c main_arg4 (by decide)
    _ = Wv0 m c (Proc.devRef .tc main_arg4) := StableHlo.after_of_writes_sub hostOps0 _ hostOps0_writes (by decide)
    _ = m ((c : Thread nD τ).loc main_arg4) := rfl

/-! ## The proof data family and the thread state -/

/-- Both regions' proof data, each at its region's entry contents: a literal match on the region. -/
def pdats : (p : Fin 2) → (c : Dev nD) → Dat τ (Elt F) Unit ℕ (UR sig nD τ) ℕ (Pipeline.pin (pcfgs (F := F)) adm p) c
  | ⟨0, _⟩ => fun c => dat0 (Rv1 m) c
  | ⟨1, _⟩ => fun c => dat1 (Rv3 m) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tlast (c : Dev nD) : sProp 𝕄 := iprop(StableHlo.held (c : Thread nD τ) (Pipeline.ucRefs τ sig) (Wv4 m c) ∗ ∃ r, prngReg c r)

/-! ## The regions as segments -/

set_option backward.isDefEq.respectTransparency.types false in
/-- The hypernetwork region: entered from every unscoped buffer at `Wv1`, left at `Wv2`. -/
def reg0 : Pipeline.RegionSeg (pcfgs (F := F)) adm (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (Rv1 m) c).loose
  hwaits := Pipeline.hwaits_of_owed_zero _ _ _ _ Lv lvl 0 fun _ _ => rfl
  pre c := iprop(StableHlo.held (c : Thread nD τ) (Pipeline.ucRefs τ sig) (Wv1 m c) ∗ Rst c)
  post c := iprop(StableHlo.held (c : Thread nD τ) (Pipeline.ucRefs τ sig) (Wv2 m c) ∗ Rst c)
  X c := iprop(∃ r, prngReg c r)
  Y c := iprop(∃ r, prngReg c r)
  Z c := Pipeline.unscopedRest (Ix := Unit) (Name := ℕ) (U := UR sig nD τ) (Lvl := ℕ) spec0 c (Rv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Rv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Rv1 m c) (Rv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gated unit's region: entered from every unscoped buffer at `Wv3`, left at `Wv4`. Its invariant starts as the plain
    one and gives the plain one back after the last point. -/
def reg1 : Pipeline.RegionSeg (pcfgs (F := F)) adm (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (Rv3 m) c).loose
  hwaits := Pipeline.hwaits_of_owed_zero _ _ _ _ Lv lvl 1 fun _ _ => rfl
  pre c := iprop(StableHlo.held (c : Thread nD τ) (Pipeline.ucRefs τ sig) (Wv3 m c) ∗ Rst c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Rv3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Rv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Rv3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Rv3 m c) (Rv4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev mainSegs : List (Pipeline.Seg (pcfgs (F := F)) adm (pdats m) () defs₀ 𝒱₀ Lv lvl) :=
  [ .host (hseg hostOps0 hostOps0_sub hostOps0_fresh (Wv0 m)),
    .region (reg0 m),
    .host (hseg hostOps1 hostOps1_sub hostOps1_fresh (Wv2 m)),
    .region (reg1 m) ]
/-- @main IS the run of the segments. -/
theorem main_run (c : Dev nD) : main (F := F) c = Pipeline.Seg.run (mainSegs m) := (main_chain c).trans (by chain_rfl)

variable (ρ : Dev nD → PrngReg)

set_option backward.isDefEq.respectTransparency.types false in
/-- THE RUN. From any memory with zero counters, every weakly fair execution of @main on the cores terminates, nothing
    faulting, and every final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wv4 m c b) :=
  Pipeline.θ_run_regions_kit (pcfgs (F := F)) adm (pdats m) () cellOf_inj emb₁ defs₀ 𝒱₀ Lv lvl m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rst c)) (Tₙ := Tlast m)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv4 m c b)
    (hfin := fun c s' => by
      iintro ⟨⟨Hh, -⟩, HSI⟩
      unfold StableHlo.held
      imodintro
      iapply (pointsTo_read_all (Pipeline.ucRefs τ sig) (fun b => (((c : Thread nD τ)).1, b)) (Wv4 m c) s')
      isplitl [Hh] <;> iassumption)
    (hQ := fun s h => h)

/-- THE FRAME: every weakly fair execution terminates and every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wv4_main_arg0 m c),
     (h c _ (mem_uc main_arg1 (by decide))).trans (Wv4_main_arg1 m c),
     (h c _ (mem_uc main_arg2 (by decide))).trans (Wv4_main_arg2 m c),
     (h c _ (mem_uc main_arg3 (by decide))).trans (Wv4_main_arg3 m c),
     (h c _ (mem_uc main_arg4 (by decide))).trans (Wv4_main_arg4 m c)⟩) (run_all m ρ)

/-- THE RESULT: beside the frame, the result array ends at what the gated unit's write-backs leave in it. -/
theorem run_value : θ_run defs (onTc (τ := τ) (main (F := F))) ⟨m, fun _ => 0, ρ⟩ (fun r => ∀ c : Dev nD,
      r.2.mem ((c.tc : Thread nD τ).loc main_v9) = (dat1 (Rv3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v9 (by decide))).trans (Wv4_arr m c 5),
     (h c _ (mem_uc main_arg0 (by decide))).trans (Wv4_main_arg0 m c),
     (h c _ (mem_uc main_arg1 (by decide))).trans (Wv4_main_arg1 m c),
     (h c _ (mem_uc main_arg2 (by decide))).trans (Wv4_main_arg2 m c),
     (h c _ (mem_uc main_arg3 (by decide))).trans (Wv4_main_arg3 m c),
     (h c _ (mem_uc main_arg4 (by decide))).trans (Wv4_main_arg4 m c)⟩) (run_all m ρ)

end Cert.KernelIdeal.Fr

end
-- ==== Proof.PayA.lean ====
/-
  The first kernel body's stored value, read entry by entry over the extended reals: the sample matrix times one
  1024-column slab of the weight matrix, plus the slab's bias row laid under every sample. Narrowing to sixteen bits
  is the identity on extended reals and the matrix product accumulates into zero, so entry (i, j) is the plain sum
  over k of sample i's k-th number times the slab's (k, j) entry, plus the bias at j.
-/
import proofs.«143842_j63823214019112_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The 64 × 1024 by 1024 × 1024 product: which operand entries meet at an output entry -/

/-- The left operand's row is the output's row. -/
theorem lhs_hyper_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
/-- The left operand's column is the contracted coordinate. -/
theorem lhs_hyper_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
/-- The right operand's row is the contracted coordinate. -/
theorem rhs_hyper_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
/-- The right operand's column is the output's column. -/
theorem rhs_hyper_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- The product into the zero splat, at entry (i, j): the sum over k of left (i, k) times right (k, j). -/
theorem hyper_matmul_apply {φ₁ φ₂ : FTy} (a : FVec Ideal S64x1024 φ₁) (b : FVec Ideal S1024x1024 φ₂) (i : Fin 64) (j : Fin 1024) :
    matmul dot_S64x1024_S1024x1024_S64x1024_1_0_0_1_n_n none a b (constant (F := Ideal) S64x1024 .f32 0x00000000#32) (ix2 i j)
      = ∑ k : Fin 1024, a (ix2 i k) * b (ix2 k j) := by
  simp only [matmul]
  rw [Ideal.matmul_constant_zero_apply, ← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 i j) ((contrEquiv1 dot_S64x1024_S1024x1024_S64x1024_1_0_0_1_n_n 1024 rfl rfl).symm k) = ix2 i k := funext fun a => Fin.ext (by
    match a with
    | ⟨0, _⟩ => exact lhs_hyper_0 _ _
    | ⟨1, _⟩ => exact (lhs_hyper_1 _ _).trans hk)
  have er : dot_S64x1024_S1024x1024_S64x1024_1_0_0_1_n_n.rhsIdx (ix2 i j) ((contrEquiv1 dot_S64x1024_S1024x1024_S64x1024_1_0_0_1_n_n 1024 rfl rfl).symm k) = ix2 k j := funext fun a => Fin.ext (by
    match a with
    | ⟨0, _⟩ => exact (rhs_hyper_0 _ _).trans hk
    | ⟨1, _⟩ => exact rhs_hyper_1 _ _)
  rw [el, er]

/-! ## The stored value at an entry -/

/-- Entry (i, j) of the first body's store: the product's sum plus the bias row at j (the row cast is the identity, the
    broadcast reads the one row). -/
theorem hyper_apply (v0 : Vec Ideal S64x1024 .f32) (v2 : Vec Ideal S1024x1024 .f32) (v5 : Vec Ideal S1x1024 .f32) (i : Fin 64) (j : Fin 1024) :
    k0_pay1 (F := Ideal) v0 v2 v5 (ix2 i j) = (∑ k : Fin 1024, v0 (ix2 i k) * v2 (ix2 k j)) + v5 (ix2 (0 : Fin 1) j) := by
  unfold k0_pay1
  rw [addf_apply]
  refine congrArg₂ (· + ·) ?_ ?_
  · refine (hyper_matmul_apply _ _ i j).trans ?_
    rfl
  · refine (broadcastTo_1b_ab_apply _ _ i j).trans ?_
    rw [shapeCast_self]

end Cert.KernelIdeal.Pay

end
-- ==== Proof.KI.ValA.lean ====
/-
  The hypernetwork product's region, from its 48 write-backs to the array it leaves: entry (i, j) of the 64 × 49152
  result is the sum over k of s (i, k) · W (k, j), plus the bias row at j.

  Point t stores, over its whole 64 × 1024 output block, the product of the whole sample block with the t-th slab of 1024
  columns of W, plus the t-th slab of the bias row under every sample. An entry of a block sits in its array, on each
  axis, at block index × block size + its coordinate inside the block; the sample window's block index is (0, 0) at
  every point and the other three windows' is (0, t). So point t's store is the restriction to columns
  1024·t … 1024·t + 1023 of ONE function of the three arrays, the 48 column slabs tile the result array (column j lies
  in slab j / 1024), and the array ends holding that function.
-/
import proofs.«143842_j63823214019112_1_alg».proof.Proof.KI.FrA
import proofs.«143842_j63823214019112_1_alg».proof.Proof.PayA
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

namespace Hyper

/-! ## One point's store is the body's arithmetic of its three blocks -/

theorem zeroOffsets : (![0, 0] : Fin 2 → Nat) = fun _ => 0 := funext fun a => by fin_cases a <;> rfl

/-- The output block after the body is the one stored value: the store and the three loads are over whole buffers. -/
theorem out0_3_eq {F : FTy → Type} [FloatOps F] (x0 : Vec F S64x1024 .f32) (x1 : Vec F S1024x1024 .f32) (x2 : Vec F S1x1024 .f32) :
    out0_3 x0 x1 x2 = k0_pay1 x0 x1 x2 := by
  unfold out0_3
  rw [View.canon_unit_zero zeroOffsets]
  simp only [View.ld_unit_zero (S := S64x1024) zeroOffsets, View.ld_unit_zero (S := S1024x1024) zeroOffsets,
    View.ld_unit_zero (S := S1x1024) zeroOffsets]

/-! ## Where each window's block sits -/

/-- The block index maps over the grid: the samples' block never moves; the slab of W, of the bias row and of the result
    is the point's own. -/
theorem blockIndex0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt Ideal) ((c : Thread nD τ).loc b))

/-- The three arrays the region reads, as it finds them: the samples, the weight matrix, the bias row. -/
abbrev sArr (c : Dev nD) : S64x1024.Idx → EReal := V c main_arg1
abbrev wArr (c : Dev nD) : S1024x49152.Idx → EReal := V c main_arg2
abbrev bArr (c : Dev nD) : S1x49152.Idx → EReal := V c main_v0

/-- Their blocks at point t. -/
abbrev sBlk (c : Dev nD) (t : Fin cfg0.N) : Vec Ideal S64x1024 .f32 := iblk0 V c 0 t
abbrev wBlk (c : Dev nD) (t : Fin cfg0.N) : Vec Ideal S1024x1024 .f32 := iblk0 V c 1 t
abbrev bBlk (c : Dev nD) (t : Fin cfg0.N) : Vec Ideal S1x1024 .f32 := iblk0 V c 2 t

/-- The samples' block at any point is the whole array. -/
theorem sBlk_apply (c : Dev nD) (t : Fin cfg0.N) (y : S64x1024.Idx) : sBlk V c t y = sArr V c y := by
  obtain ⟨e0, e1, -⟩ := blockIndex0 t
  show iblk0 V c 0 t y = V c main_arg1 y
  unfold iblk0
  rw [View.read_apply]
  show V c main_arg1 _ = V c main_arg1 _
  congr 1
  funext a
  apply Fin.ext
  match a with
  | ⟨0, _⟩ => show win0_0.index t (0 : Fin 2) * 64 + 1 * (y 0).val = (y 0).val; rw [e0]; omega
  | ⟨1, _⟩ => show win0_0.index t (1 : Fin 2) * 1024 + 1 * (y 1).val = (y 1).val; rw [e1]; omega

/-- The slab of W at point t is columns 1024·t … of the array. -/
theorem wBlk_apply (c : Dev nD) (t : Fin cfg0.N) (k : Fin 1024) (q : Fin 1024) (j : Fin 49152) (hj : j.val = t.val * 1024 + q.val) :
    wBlk V c t (ix2 k q) = wArr V c (ix2 k j) := by
  obtain ⟨-, -, e0, e1, -⟩ := blockIndex0 t
  show iblk0 V c 1 t (ix2 k q) = V c main_arg2 (ix2 k j)
  unfold iblk0
  rw [View.read_apply]
  show V c main_arg2 _ = V c main_arg2 _
  congr 1
  funext a
  apply Fin.ext
  match a with
  | ⟨0, _⟩ => show win0_1.index t (0 : Fin 2) * 1024 + 1 * k.val = k.val; rw [e0]; omega
  | ⟨1, _⟩ => show win0_1.index t (1 : Fin 2) * 1024 + 1 * q.val = j.val; rw [e1, hj]; omega

/-- The slab of the bias row at point t is columns 1024·t … of the row. -/
theorem bBlk_apply (c : Dev nD) (t : Fin cfg0.N) (q : Fin 1024) (j : Fin 49152) (hj : j.val = t.val * 1024 + q.val) :
    bBlk V c t (ix2 (0 : Fin 1) q) = bArr V c (ix2 (0 : Fin 1) j) := by
  obtain ⟨-, -, -, -, e0, e1, -⟩ := blockIndex0 t
  show iblk0 V c 2 t (ix2 (0 : Fin 1) q) = V c main_v0 (ix2 (0 : Fin 1) j)
  unfold iblk0
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 1024 + 1 * q.val = j.val; rw [e1, hj]; omega

/-! ## The whole array -/

/-- Entry (i, j) of the product plus bias, of the three arrays as the region finds them. -/
def hyperAt (c : Dev nD) (i : Fin 64) (j : Fin 49152) : EReal :=
  (∑ k : Fin 1024, sArr V c (ix2 i k) * wArr V c (ix2 k j)) + bArr V c (ix2 (0 : Fin 1) j)

/-- The same as one array. -/
def hyperArr (c : Dev nD) : S64x49152.Idx → EReal := fun x => hyperAt V c (x 0) (x 1)

/-- The array at an index whose coordinates are known. -/
theorem hyperArr_apply (c : Dev nD) (x : S64x49152.Idx) (i : Fin 64) (j : Fin 49152) (h0 : (x 0).val = i.val) (h1 : (x 1).val = j.val) :
    hyperArr V c x = hyperAt V c i j := by
  obtain rfl : x = ix2 i j := funext fun a => Fin.ext (by
    match a with
    | ⟨0, _⟩ => exact h0
    | ⟨1, _⟩ => exact h1)
  rfl

/-- Point t's store at (p, q) is the array's entry at (p, 1024·t + q). -/
theorem store_apply (c : Dev nD) (t : Fin cfg0.N) (p : Fin 64) (q : Fin 1024) (j : Fin 49152) (hj : j.val = t.val * 1024 + q.val) :
    out0_3 (sBlk V c t) (wBlk V c t) (bBlk V c t) (ix2 p q) = hyperAt V c p j := by
  rw [out0_3_eq]
  refine (Pay.hyper_apply (sBlk V c t) (wBlk V c t) (bBlk V c t) p q).trans ?_
  unfold hyperAt
  refine congrArg₂ (fun a b : EReal => a + b) (Finset.sum_congr rfl fun k _ => ?_) (bBlk_apply V c t q j hj)
  exact congrArg₂ (fun a b : EReal => a * b) (sBlk_apply V c t (ix2 p k)) (wBlk_apply V c t k q j hj)

/-! ## From the 48 write-backs to the array -/

/-- What point t writes back is its slab of columns of `hyperArr`. -/
theorem flushed0_eq (c : Dev nD) (t : Fin cfg0.N) :
    (dat0 V c).flushed 3 t = ((cfg0.win 3).blk t).view.read (Elt Ideal) (hyperArr V c) := by
  show (cfg0.win 3).cut (grid0.coords t) ((dat0 V c).after 3 t) = _
  rw [after0_3]
  obtain ⟨-, -, -, -, -, -, e0, e1⟩ := blockIndex0 t
  have hN : grid0.N = 48 := N_0
  have ht : t.val < grid0.N := t.isLt
  funext y
  obtain ⟨p, q, rfl⟩ : ∃ (p : Fin 64) (q : Fin 1024), y = ix2 p q := ⟨y 0, y 1, eq_ix2 y⟩
  have hj : t.val * 1024 + q.val < 49152 := by have := q.isLt; omega
  refine (store_apply V c t p q ⟨t.val * 1024 + q.val, hj⟩ rfl).trans ?_
  rw [View.read_apply]
  refine (hyperArr_apply V c _ p ⟨t.val * 1024 + q.val, hj⟩ ?_ ?_).symm
  · show win0_3.index t (0 : Fin 2) * 64 + 1 * p.val = p.val; rw [e0]; omega
  · show win0_3.index t (1 : Fin 2) * 1024 + 1 * q.val = t.val * 1024 + q.val; rw [e1]; omega

/-- An entry of the result array is in point t's block iff each coordinate is in the block's range on its axis. -/
theorem mem_block0 (t : Fin cfg0.N) (x : S64x49152.Idx) :
    x ∈ ((cfg0.win 3).blk t).view.set ↔ ∀ a : Fin 2, win0_3.index t a * S64x1024.size a ≤ (x a).val ∧ (x a).val < win0_3.index t a * S64x1024.size a + S64x1024.size a := by
  show x ∈ ((View.whole main_v1).slice (win0_3.rect t)).set ↔ _
  rw [View.set_slice_whole, Rect.mem_set_unit]
  exact Iff.rfl

/-- Every entry is written back by some point: column j by point j / 1024. -/
theorem cover0 (x : S64x49152.Idx) : ∃ t : Fin cfg0.N, (cfg0.win 3).flush t = true ∧ x ∈ ((cfg0.win 3).blk t).view.set := by
  have hN : grid0.N = 48 := N_0
  have h0 : (x 0).val < 64 := (x 0).isLt
  have h1 : (x 1).val < 49152 := (x 1).isLt
  have ht : (x 1).val / 1024 < grid0.N := by omega
  refine ⟨⟨(x 1).val / 1024, ht⟩, flush0_3 _, ?_⟩
  obtain ⟨-, -, -, -, -, -, e0, e1⟩ := blockIndex0 ⟨(x 1).val / 1024, ht⟩
  rw [mem_block0]
  intro a
  match a with
  | ⟨0, _⟩ =>
    show win0_3.index ⟨(x 1).val / 1024, ht⟩ (0 : Fin 2) * 64 ≤ (x 0).val ∧ (x 0).val < win0_3.index ⟨(x 1).val / 1024, ht⟩ (0 : Fin 2) * 64 + 64
    rw [e0]; omega
  | ⟨1, _⟩ =>
    show win0_3.index ⟨(x 1).val / 1024, ht⟩ (1 : Fin 2) * 1024 ≤ (x 1).val ∧ (x 1).val < win0_3.index ⟨(x 1).val / 1024, ht⟩ (1 : Fin 2) * 1024 + 1024
    rw [e1]
    show (x 1).val / 1024 * 1024 ≤ (x 1).val ∧ (x 1).val < (x 1).val / 1024 * 1024 + 1024
    omega

end Hyper

open Hyper

variable (V : (c : Dev nD) → (b : Ref sig .tc) → Buf (Elt Ideal) ((c : Thread nD τ).loc b))

/-- The result array after the region is `hyperArr`: every point writes back its slab of it, and the slabs cover. -/
theorem final0 (c : Dev nD) : (dat0 V c).arrAt 3 cfg0.N = hyperArr V c :=
  (dat0 V c).arrAt_eq_of_cover 3 (hyperArr V c) (fun t _ => flushed0_eq V c t) cover0

/-- The result array after the region, entry by entry: the samples times the weight matrix, plus the bias row. -/
theorem final0_apply (c : Dev nD) (i : Fin 64) (j : Fin 49152) :
    ((dat0 V c).arrAt 3 cfg0.N : S64x49152.Idx → EReal) (ix2 i j)
      = (∑ k : Fin 1024, sArr V c (ix2 i k) * wArr V c (ix2 k j)) + bArr V c (ix2 (0 : Fin 1) j) :=
  congrFun (final0 V c) (ix2 i j)

/-- The same with the three arrays under any names. -/
theorem final0_apply_of (c : Dev nD) (s : S64x1024.Idx → EReal) (W : S1024x49152.Idx → EReal) (b : S1x49152.Idx → EReal)
    (hs : V c main_arg1 = s) (hW : V c main_arg2 = W) (hb : V c main_v0 = b) (i : Fin 64) (j : Fin 49152) :
    ((dat0 V c).arrAt 3 cfg0.N : S64x49152.Idx → EReal) (ix2 i j)
      = (∑ k : Fin 1024, s (ix2 i k) * W (ix2 k j)) + b (ix2 (0 : Fin 1) j) := by
  subst hs hW hb
  exact final0_apply V c i j

end Cert.KernelIdeal.Fr

end
-- ==== Proof.KI.ValB1.lean ====
/-
  The gated unit's region, point by point, in the body's own arithmetic.

  The region keeps three buffers between points. At a sample's first tile the body writes each of them once, whole: the
  gate weights, the value weights and the output-projection weights of the sample, each column divided by its
  length (the length kept above a small floor). At every tile it writes its output block once, whole: the tile's tokens, the scale row and the three kept
  buffers put through the gated unit. Here these writes are read back as the body's named arithmetic of what it loaded;
  the three weight windows are shown to stand still along a sample's four tiles; so after EVERY point the kept buffers
  hold the point's own three weight blocks normalised; and hence the output block after a point is one expression in
  that point's five input blocks, the same at a first tile and at a later one.
-/
import proofs.«143842_j63823214019112_1_alg».proof.Proof.KI.FrB
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores read back as

Every load and every store of the body is of a whole buffer, at zero offsets. So a buffer written once reads back as
the stored value, a load of an input reads its contents, and a load of a kept buffer after its store reads that store. -/

/-- The zero offsets of a rank-2 and of a rank-3 buffer, as the body spells them. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a first tile the first kept buffer ends holding the gate weights normalised. -/
theorem sout1_A_0_eq (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) :
    sout1_A_0 c i arg2 harg2 arg3 harg3 arg4 harg4 arg5 harg5 arg6 harg6 arg7 harg7 arg8 harg8 arg9 harg9 arg10 harg10 hc0 x0 x1 x2 x3 x4 = k1_pay2 x1 := by
  unfold sout1_A_0
  rw [View.read_writes_junk_eq_canon]
  unfold kernelRun1_A
  dsimp only
  sl_unfold_words
  rw [View.canon_unit_zero hz2]
  simp only [View.readAt_eq_ld, harg3.read_unread, View.ld_unit_zero (S := S1x64x256) hz3]

/-- At a first tile the second kept buffer ends holding the value weights normalised. -/
theorem sout1_A_1_eq (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) :
    sout1_A_1 c i arg2 harg2 arg3 harg3 arg4 harg4 arg5 harg5 arg6 harg6 arg7 harg7 arg8 harg8 arg9 harg9 arg10 harg10 hc0 x0 x1 x2 x3 x4 = k1_pay3 x2 := by
  unfold sout1_A_1
  rw [View.read_writes_junk_eq_canon]
  unfold kernelRun1_A
  dsimp only
  sl_unfold_words
  rw [View.canon_unit_zero hz2]
  simp only [View.readAt_eq_ld, harg4.read_unread, View.ld_unit_zero (S := S1x64x256) hz3]

/-- At a first tile the third kept buffer ends holding the output-projection weights normalised. -/
theorem sout1_A_2_eq (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) :
    sout1_A_2 c i arg2 harg2 arg3 harg3 arg4 harg4 arg5 harg5 arg6 harg6 arg7 harg7 arg8 harg8 arg9 harg9 arg10 harg10 hc0 x0 x1 x2 x3 x4 = k1_pay5 (k1_pay4 x3) := by
  unfold sout1_A_2
  rw [View.read_writes_junk_eq_canon]
  unfold kernelRun1_A
  dsimp only
  sl_unfold_words
  rw [View.canon_unit_zero hz2]
  simp only [View.readAt_eq_ld, harg5.read_unread, View.ld_unit_zero (S := S1x256x64) hz3]

/-- At a first tile the output block ends holding the gated unit of the tokens, the scale row and the three weight
    blocks as just normalised: the body reads the kept buffers back after storing them. -/
theorem out1_A_5_eq (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : cond1_0 i) (x0 : Vec F S1x1024x64 .f32) (x1 : Vec F S1x64x256 .f32) (x2 : Vec F S1x64x256 .f32) (x3 : Vec F S1x256x64 .f32) (x4 : Vec F S1x64 .f32) :
    out1_A_5 c i arg2 harg2 arg3 harg3 arg4 harg4 arg5 harg5 arg6 harg6 arg7 harg7 arg8 harg8 arg9 harg9 arg10 harg10 hc0 x0 x1 x2 x3 x4 = k1_pay1 (k1_pay6 x0 x4 (k1_pay2 x1) (k1_pay3 x2) (k1_pay5 (k1_pay4 x3))) := by
  unfold out1_A_5
  rw [View.read_writes_junk_eq_canon]
  unfold kernelRun1_A
  dsimp only
  sl_unfold_words
  rw [View.canon_unit_zero (S := S1x1024x64) hz3]
  simp only [View.readAt_eq_ld, harg2.read_unread, harg3.read_unread, harg4.read_unread, harg5.read_unread, harg6.read_unread,
    View.ld_unit_zero (S := S1x1024x64) hz3, View.ld_unit_zero (S := S1x64x256) hz3, View.ld_unit_zero (S := S1x256x64) hz3,
    View.ld_unit_zero (S := S1x64) hz2,
    View.readCov_unit_zero (S := S64x256) _ hz2, View.readCov_unit_zero (S := S256x64) _ hz2]

/-- At a later tile the output block ends holding the gated unit of the tokens, the scale row and the kept buffers as
    they came in. -/
theorem out1_B_5_eq (c : Dev nD) (i : grid1.Coords) (arg2 : Memref sig .tc .vmem S1x1024x64 .f32) (harg2 : arg2.IsWhole) (arg3 : Memref sig .tc .vmem S1x64x256 .f32) (harg3 : arg3.IsWhole) (arg4 : Memref sig .tc .vmem S1x64x256 .f32) (harg4 : arg4.IsWhole) (arg5 : Memref sig .tc .vmem S1x256x64 .f32) (harg5 : arg5.IsWhole) (arg6 : Memref sig .tc .vmem S1x64 .f32) (harg6 : arg6.IsWhole) (arg7 : Memref sig .tc .vmem S1x1024x64 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S256x64 .f32) (harg10 : arg10.IsWhole) (hc0 : ¬cond1_0 i) (x0 : Vec F S1x1024x64 .f32) (x1 : Vec F S1x64x256 .f32) (x2 : Vec F S1x64x256 .f32) (x3 : Vec F S1x256x64 .f32) (x4 : Vec F S1x64 .f32) (xs0 : Vec F S64x256 .f32) (xs1 : Vec F S64x256 .f32) (xs2 : Vec F S256x64 .f32) :
    out1_B_5 c i arg2 harg2 arg3 harg3 arg4 harg4 arg5 harg5 arg6 harg6 arg7 harg7 arg8 harg8 arg9 harg9 arg10 harg10 hc0 x0 x1 x2 x3 x4 xs0 xs1 xs2 = k1_pay1 (k1_pay6 x0 x4 xs0 xs1 xs2) := by
  unfold out1_B_5
  rw [View.read_writes_junk_eq_canon]
  unfold kernelRun1_B
  dsimp only
  sl_unfold_words
  rw [View.canon_unit_zero (S := S1x1024x64) hz3]
  simp only [View.readAt_eq_ld, harg2.read_unread, harg6.read_unread, harg8.read_unread, harg9.read_unread, harg10.read_unread,
    View.ld_unit_zero (S := S1x1024x64) hz3, View.ld_unit_zero (S := S1x64) hz2,
    View.ld_unit_zero (S := S64x256) hz2, View.ld_unit_zero (S := S256x64) hz2]

variable (V : (c : Dev nD) → (b : Ref sig .tc) → Buf (Elt F) ((c : Thread nD τ).loc b))

/-! ## The weight windows stand still along a sample -/

/-- The point before `t`. -/
abbrev prevPt (t : Fin cfg1.N) : Fin cfg1.N := ⟨t.val - 1, Nat.lt_of_le_of_lt (Nat.sub_le _ _) t.isLt⟩

/-- The three weight windows are indexed by the sample alone: at a later tile their block index is the point
    before's. Decided over the 256 points. -/
theorem idx_stay1 : ∀ t : Fin cfg1.N, t.val % 4 ≠ 0 →
    (cfg1.win 1).index t = (cfg1.win 1).index (prevPt t) ∧ (cfg1.win 2).index t = (cfg1.win 2).index (prevPt t)
      ∧ (cfg1.win 3).index t = (cfg1.win 3).index (prevPt t) :=
  (by decide +kernel : ∀ t : Fin grid1.N, t.val % 4 ≠ 0 →
    win1_1.index t = win1_1.index ⟨t.val - 1, Nat.lt_of_le_of_lt (Nat.sub_le _ _) t.isLt⟩
      ∧ win1_2.index t = win1_2.index ⟨t.val - 1, Nat.lt_of_le_of_lt (Nat.sub_le _ _) t.isLt⟩
      ∧ win1_3.index t = win1_3.index ⟨t.val - 1, Nat.lt_of_le_of_lt (Nat.sub_le _ _) t.isLt⟩)

/-- The point's blocks of the gate, value and output-projection weights, at their literal shapes (the windows are never
    cut at the array's end, so every point's block has the window's own shape). -/
abbrev gblk (c : Dev nD) (t : Fin cfg1.N) : Vec F S1x64x256 .f32 := iblk1 V c 1 t
abbrev vblk (c : Dev nD) (t : Fin cfg1.N) : Vec F S1x64x256 .f32 := iblk1 V c 2 t
abbrev fblk (c : Dev nD) (t : Fin cfg1.N) : Vec F S1x256x64 .f32 := iblk1 V c 3 t

/-- Two points with one block index see one block: the same elements of the array. -/
theorem gblk_congr (c : Dev nD) {t t' : Fin cfg1.N} (h : (cfg1.win 1).index t = (cfg1.win 1).index t') :
    gblk V c t = gblk V c t' := by
  have e : ∀ s, (dat1 V c).fetched 1 s (gblk V c t) = gblk V c s := fun s => by
    unfold Dat.fetched Dat.blockOf gblk iblk1; rw [A_eq1]; try rfl
  exact (e t).symm.trans (((dat1 V c).fetched_congr 1 h rfl _).trans (e t'))

theorem vblk_congr (c : Dev nD) {t t' : Fin cfg1.N} (h : (cfg1.win 2).index t = (cfg1.win 2).index t') :
    vblk V c t = vblk V c t' := by
  have e : ∀ s, (dat1 V c).fetched 2 s (vblk V c t) = vblk V c s := fun s => by
    unfold Dat.fetched Dat.blockOf vblk iblk1; rw [A_eq1]; try rfl
  exact (e t).symm.trans (((dat1 V c).fetched_congr 2 h rfl _).trans (e t'))

theorem fblk_congr (c : Dev nD) {t t' : Fin cfg1.N} (h : (cfg1.win 3).index t = (cfg1.win 3).index t') :
    fblk V c t = fblk V c t' := by
  have e : ∀ s, (dat1 V c).fetched 3 s (fblk V c t) = fblk V c s := fun s => by
    unfold Dat.fetched Dat.blockOf fblk iblk1; rw [A_eq1]; try rfl
  exact (e t).symm.trans (((dat1 V c).fetched_congr 3 h rfl _).trans (e t'))

/-! ## The kept buffers after every point -/

/-- THE INVARIANT. After every point the three kept buffers hold the point's own three weight blocks normalised: a first
    tile stores exactly that; a later tile leaves them as the point before left them, and the point before saw the same
    three blocks. By induction on the point. -/
theorem kept_closed (c : Dev nD) : ∀ (k : ℕ) (t : Fin cfg1.N), t.val = k →
    (outsAt1 V c t.val t.isLt).2.1 = k1_pay2 (gblk V c t)
      ∧ (outsAt1 V c t.val t.isLt).2.2.1 = k1_pay3 (vblk V c t)
      ∧ (outsAt1 V c t.val t.isLt).2.2.2 = k1_pay5 (k1_pay4 (fblk V c t)) := by
  intro k
  induction k using Nat.strong_induction_on with
  | _ k ih =>
    intro t ht
    by_cases h0 : t.val % 4 = 0
    · rw [outsAt1_A V c t h0]
      dsimp only [caseA]
      exact ⟨sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t),
        sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t),
        sout1_A_2_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t)⟩
    · rw [outsAt1_B V c t h0]
      dsimp only [caseB]
      obtain ⟨i1, i2, i3⟩ := idx_stay1 t h0
      obtain ⟨ka, kb, kd⟩ := ih (t.val - 1) (by omega) (prevPt t) rfl
      exact ⟨ka.trans (congrArg k1_pay2 (gblk_congr V c i1).symm),
        kb.trans (congrArg k1_pay3 (vblk_congr V c i2).symm),
        kd.trans (congrArg (fun x => k1_pay5 (k1_pay4 x)) (fblk_congr V c i3).symm)⟩

/-! ## The output block after every point -/

/-- After point `t` the output block holds the body's result of the point's five input blocks alone: the token tile and
    the scale row through the three weight matrices each normalised — whether the point normalised them itself (a first
    tile) or read what the sample's first tile kept. -/
theorem out_closed (c : Dev nD) (t : Fin cfg1.N) :
    (outsAt1 V c t.val t.isLt).1
      = k1_pay1 (k1_pay6 (iblk1 V c 0 t) (iblk1 V c 4 t) (k1_pay2 (iblk1 V c 1 t)) (k1_pay3 (iblk1 V c 2 t))
          (k1_pay5 (k1_pay4 (iblk1 V c 3 t)))) := by
  by_cases h0 : t.val % 4 = 0
  · rw [outsAt1_A V c t h0]
    dsimp only [caseA]
    exact out1_A_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t)
  · rw [outsAt1_B V c t h0]
    dsimp only [caseB]
    obtain ⟨i1, i2, i3⟩ := idx_stay1 t h0
    obtain ⟨ka, kb, kd⟩ := kept_closed V c (t.val - 1) (prevPt t) rfl
    refine (out1_B_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t)
      (outsAt1 V c (t.val - 1) (prevPt t).isLt).2.1 (outsAt1 V c (t.val - 1) (prevPt t).isLt).2.2.1
      (outsAt1 V c (t.val - 1) (prevPt t).isLt).2.2.2).trans ?_
    have ea : (outsAt1 V c (t.val - 1) (prevPt t).isLt).2.1 = k1_pay2 (gblk V c t) :=
      ka.trans (congrArg k1_pay2 (gblk_congr V c i1).symm)
    have eb : (outsAt1 V c (t.val - 1) (prevPt t).isLt).2.2.1 = k1_pay3 (vblk V c t) :=
      kb.trans (congrArg k1_pay3 (vblk_congr V c i2).symm)
    have ed : (outsAt1 V c (t.val - 1) (prevPt t).isLt).2.2.2 = k1_pay5 (k1_pay4 (fblk V c t)) :=
      kd.trans (congrArg (fun x => k1_pay5 (k1_pay4 x)) (fblk_congr V c i3).symm)
    rw [ea, eb, ed]

end Cert.KernelIdeal.Fr

end
-- ==== Proof.Spec.lean ====
/-
  What both programs compute, as ONE function of the five argument arrays, entry by entry, over the extended reals.

  A hypernetwork row `mlp i` = `s i · W + b` (49152 numbers per sample `i`) is cut in three and re-laid as the sample's
  three weight matrices: gate `gP i` (64 × 256), value `vP i` (64 × 256) and projection `fP i` (256 × 64), each read
  row-major out of its third of the row. Every matrix is normalised column by column along its FIRST axis
  (`colNormalize`): an entry is divided by the larger of the column's Euclidean length and the constant `epsN`.
  A token (64 numbers) is scaled by the reciprocal root of its mean square plus `epsR` and by `sc`, multiplied into the
  two normalised 64 × 256 matrices, the gate passed through `t ↦ t · logistic t` and multiplied by the value, and the
  256 products multiplied into the normalised 256 × 64 matrix; the token itself is added back (`tokOut`: a function
  of ONE token and the three matrices, whichever array or block they are read from).

  Nothing here mentions a program: the sums are `Finset` sums over the literal extents and the three float literals stay
  as their words, so that the same word on both sides is never evaluated.
-/
import Idealize.ShloMosaic.PureOps.Ideal
import Idealize.ShloMosaic.Lib.ValueIdx

noncomputable section

namespace Cert.Glu

open Idealize.ShloMosaic Idealize.ShloMosaic.ValueIdx

/-- The floor of a column's length (the word of 1e-12 in f32). -/
abbrev epsN : EReal := Ideal.ofBits .f32 0x2B8CBCCC#32
/-- The term added to a token's mean square (the word of 1e-6 in f32). -/
abbrev epsR : EReal := Ideal.ofBits .f32 0x358637BD#32
/-- The number of entries of a token, 64, as the float both programs divide by. -/
abbrev c64 : EReal := Ideal.ofBits .f32 0x42800000#32

/-- An entry of a matrix over the larger of its column's Euclidean length (taken along the first axis) and `epsN`. -/
def colNormalize {A B : ℕ} (w : Fin A → Fin B → EReal) (a : Fin A) (c : Fin B) : EReal :=
  Ideal.div (w a c) (max (Ideal.sqrt (∑ a' : Fin A, w a' c * w a' c)) epsN)

/-! ## One token through the gated unit -/

/-- The reciprocal root of a token's mean square plus `epsR`. -/
def tokRr (xt : Fin 64 → EReal) : EReal := Ideal.rsqrt (Ideal.div (∑ d : Fin 64, xt d * xt d) c64 + epsR)
/-- The normalised, scaled token. -/
def tokXn (xt sc : Fin 64 → EReal) (d : Fin 64) : EReal := xt d * tokRr xt * sc d
/-- The normalised token through a 64 × 256 matrix. -/
def tokDot (xt sc : Fin 64 → EReal) (w : Fin 64 → Fin 256 → EReal) (h : Fin 256) : EReal :=
  ∑ d : Fin 64, tokXn xt sc d * w d h
/-- The gated hidden unit: `gate · logistic gate · value`. -/
def tokHid (xt sc : Fin 64 → EReal) (gn vn : Fin 64 → Fin 256 → EReal) (h : Fin 256) : EReal :=
  tokDot xt sc gn h * Ideal.logistic (tokDot xt sc gn h) * tokDot xt sc vn h
/-- The hidden units through the 256 × 64 projection, plus the token. -/
def tokOut (xt sc : Fin 64 → EReal) (gn vn : Fin 64 → Fin 256 → EReal) (fn : Fin 256 → Fin 64 → EReal) (d : Fin 64) : EReal :=
  (∑ h : Fin 256, tokHid xt sc gn vn h * fn h d) + xt d

/-! ## The whole arrays -/

section
variable (x : (⟨3, ![64, 4096, 64]⟩ : Shape).Idx → EReal) (s : (⟨2, ![64, 1024]⟩ : Shape).Idx → EReal)
  (W : (⟨2, ![1024, 49152]⟩ : Shape).Idx → EReal) (b : (⟨1, ![49152]⟩ : Shape).Idx → EReal)
  (sc : (⟨1, ![64]⟩ : Shape).Idx → EReal)

/-- The hypernetwork's row for sample `i` at column `j`: `∑ₖ s i k · W k j + b j`. -/
def mlp (i : Fin 64) (j : Fin 49152) : EReal := (∑ k : Fin 1024, s (ix2 i k) * W (ix2 k j)) + b (ix1 j)

/-- Sample `i`'s gate matrix: the first third of its row, 64 rows of 256. -/
def gP (i : Fin 64) (d : Fin 64) (h : Fin 256) : EReal := mlp s W b i ⟨d.val * 256 + h.val, by omega⟩
/-- Sample `i`'s value matrix: the second third, 64 rows of 256. -/
def vP (i : Fin 64) (d : Fin 64) (h : Fin 256) : EReal := mlp s W b i ⟨16384 + (d.val * 256 + h.val), by omega⟩
/-- Sample `i`'s projection matrix: the last third, 256 rows of 64. -/
def fP (i : Fin 64) (h : Fin 256) (d : Fin 64) : EReal := mlp s W b i ⟨32768 + (h.val * 64 + d.val), by omega⟩

/-- The result at token `(i, n)`, entry `d`. -/
def out (i : Fin 64) (n : Fin 4096) (d : Fin 64) : EReal :=
  tokOut (fun d' => x (ix3 i n d')) (fun d' => sc (ix1 d')) (colNormalize (gP s W b i)) (colNormalize (vP s W b i))
    (colNormalize (fP s W b i)) d

/-- The whole result array. -/
def G : (⟨3, ![64, 4096, 64]⟩ : Shape).Idx → EReal := fun j => out x s W b sc (j 0) (j 1) (j 2)

theorem G_ix3 (i : Fin 64) (n : Fin 4096) (d : Fin 64) : G x s W b sc (ix3 i n d) = out x s W b sc i n d := rfl

end

end Cert.Glu

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.PayB.lean ====
/-
  The second kernel body's stored values, read entry by entry over the extended reals.

  Three of its stores normalise a sample's weight matrix column by column: every entry is divided by the larger of its
  column's Euclidean length (the root of the sum of squares down the first axis) and a fixed floor. The fourth is a
  token's whole way through the gated unit: scaled by the reciprocal root of its mean square and by the scale row,
  multiplied into the two normalised 64 × 256 matrices, gate times logistic of gate times value, multiplied into the
  normalised 256 × 64 matrix, and the token added back. Narrowing to sixteen bits is the identity on extended reals,
  every matrix product accumulates into zero and every lane reduction is a plain finite sum, so each stored entry is
  literally the specification's function of the loaded arrays.
-/
import proofs.«143842_j63823214019112_1_alg».proof.Proof.Gen.KernelIdeal.Skeleton
import proofs.«143842_j63823214019112_1_alg».proof.Proof.Spec
import proofs.«143842_j63823214019112_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Glu

/-! ## Lane sums as finite sums -/

/-- A sum down the FIRST axis of a matrix, read at column c: the sum over the rows of the entries of that column. -/
theorem sumAxis0_apply {A B : ℕ} (src : FVec Ideal ⟨2, ![A, B]⟩ .f32) (hr : (⟨2, ![A, B]⟩ : Shape).Reduces [0] ⟨1, ![B]⟩)
    (hφ : FKind.Formats .f32) (hacc : (0x00000000#32 : BitVec 32) = 0x00000000#32) (c : Fin B) :
    multiReduction .add [0] ⟨1, ![B]⟩ src 0x00000000#32 hr hφ hacc (ix1 c) = ∑ a : Fin A, src (ix2 a c) := by
  refine (Ideal.multiReduction_add_single src 0x00000000#32 hr hφ hacc (ix1 c)).trans ?_
  show ∑ a : Fin A, src (hr.lift (ix1 c) a) = _
  refine Finset.sum_congr rfl fun a _ => congrArg src (funext fun ax => Fin.ext ?_)
  match ax with
  | ⟨0, _⟩ => rfl
  | ⟨1, _⟩ => rfl

/-- A sum along the SECOND axis of a matrix, read at row r: the sum over the columns of the entries of that row. -/
theorem sumAxis1_apply {A B : ℕ} (src : FVec Ideal ⟨2, ![A, B]⟩ .f32) (hr : (⟨2, ![A, B]⟩ : Shape).Reduces [1] ⟨1, ![A]⟩)
    (hφ : FKind.Formats .f32) (hacc : (0x00000000#32 : BitVec 32) = 0x00000000#32) (r : Fin A) :
    multiReduction .add [1] ⟨1, ![A]⟩ src 0x00000000#32 hr hφ hacc (ix1 r) = ∑ b : Fin B, src (ix2 r b) := by
  refine (Ideal.multiReduction_add_single src 0x00000000#32 hr hφ hacc (ix1 r)).trans ?_
  show ∑ b : Fin B, src (hr.lift (ix1 r) b) = _
  refine Finset.sum_congr rfl fun b _ => congrArg src (funext fun ax => Fin.ext ?_)
  match ax with
  | ⟨0, _⟩ => rfl
  | ⟨1, _⟩ => rfl

/-! ## A matrix normalised column by column -/

/-- Square roots, reciprocal roots and the logistic act entry by entry. -/
theorem sqrt_apply {s : Shape} {φ : FTy} (x : FVec Ideal s φ) (i : s.Idx) : sqrt x i = Ideal.sqrt (x i) := rfl
theorem rsqrt_apply {s : Shape} {φ : FTy} (x : FVec Ideal s φ) (i : s.Idx) : rsqrt x i = Ideal.rsqrt (x i) := rfl
theorem logistic_apply {s : Shape} {φ : FTy} (x : FVec Ideal s φ) (i : s.Idx) : logistic x i = Ideal.logistic (x i) := rfl

/-- The chain "drop the unit axis, square, sum down the columns, root, floor, lay the row under every row, divide",
    read at (a, c), is the column normalisation of the matrix at (a, c), whatever the extents. -/
theorem colNormalize_chain {A B : ℕ} (v : Vec Ideal ⟨3, ![1, A, B]⟩ .f32)
    (hc : (⟨3, ![1, A, B]⟩ : Shape).ShapeCasts ⟨2, ![A, B]⟩) (hr : (⟨2, ![A, B]⟩ : Shape).Reduces [0] ⟨1, ![B]⟩)
    (hφ : FKind.Formats .f32) (hacc : (0x00000000#32 : BitVec 32) = 0x00000000#32)
    (h1 : (⟨1, ![B]⟩ : Shape).ShapeCasts ⟨2, ![1, B]⟩) (hb : (⟨2, ![1, B]⟩ : Shape).Broadcasts ⟨2, ![A, B]⟩)
    (a : Fin A) (c : Fin B) :
    divf (shapeCast ⟨2, ![A, B]⟩ v hc)
        (broadcastTo ⟨2, ![A, B]⟩
          (maximumf
            (sqrt (shapeCast ⟨2, ![1, B]⟩
              (multiReduction .add [0] ⟨1, ![B]⟩ (mulf (shapeCast ⟨2, ![A, B]⟩ v hc) (shapeCast ⟨2, ![A, B]⟩ v hc))
                0x00000000#32 hr hφ hacc) h1))
            (broadcast ⟨2, ![1, B]⟩ (Scalar.ofBits (F := Ideal) .f32 0x2B8CBCCC#32))) hb) (ix2 a c)
      = colNormalize (fun (a' : Fin A) (c' : Fin B) => v (ix3 (0 : Fin 1) a' c')) a c := by
  unfold colNormalize
  refine (divf_apply _ _ _).trans ?_
  refine congrArg₂ Ideal.div (shapeCast_1ab_ab_apply v hc a c) ?_
  refine (broadcastTo_1b_ab_apply _ hb a c).trans ?_
  refine (maximumf_apply _ _ _).trans ?_
  refine congrArg₂ max ?_ rfl
  refine (sqrt_apply _ _).trans (congrArg Ideal.sqrt ?_)
  refine (shapeCast_a_1a_apply _ h1 0 c).trans ?_
  refine (sumAxis0_apply _ hr hφ hacc c).trans ?_
  refine Finset.sum_congr rfl fun a' _ => ?_
  refine (mulf_apply _ _ _).trans ?_
  rw [shapeCast_1ab_ab_apply v hc a' c]

/-- The normalised gate matrix. -/
theorem gn_apply (v37 : Vec Ideal S1x64x256 .f32) (d : Fin 64) (h : Fin 256) :
    k1_pay2 (F := Ideal) v37 (ix2 d h) = colNormalize (fun (d' : Fin 64) (h' : Fin 256) => v37 (ix3 (0 : Fin 1) d' h')) d h := by
  unfold k1_pay2
  rw [shapeCast_self]
  exact colNormalize_chain v37 _ _ _ _ _ _ d h

/-- The normalised value matrix. -/
theorem vn_apply (v50 : Vec Ideal S1x64x256 .f32) (d : Fin 64) (h : Fin 256) :
    k1_pay3 (F := Ideal) v50 (ix2 d h) = colNormalize (fun (d' : Fin 64) (h' : Fin 256) => v50 (ix3 (0 : Fin 1) d' h')) d h := by
  unfold k1_pay3
  rw [shapeCast_self]
  exact colNormalize_chain v50 _ _ _ _ _ _ d h

/-- The normalised projection matrix. -/
theorem fn_apply (v63 : Vec Ideal S1x256x64 .f32) (h : Fin 256) (d : Fin 64) :
    k1_pay5 (F := Ideal) (k1_pay4 (F := Ideal) v63) (ix2 h d) = colNormalize (fun (h' : Fin 256) (d' : Fin 64) => v63 (ix3 (0 : Fin 1) h' d')) h d := by
  unfold k1_pay5 k1_pay4
  rw [shapeCast_self]
  exact colNormalize_chain v63 _ _ _ _ _ _ h d

/-! ## The two matrix products of the gated unit: which operand entries meet at an output entry -/

/-- Tokens into a 64 × 256 matrix: the left operand's row is the output's row. -/
theorem lhs_hid_0 (i : S1024x256.Idx) (q : dot_S1024x64_S64x256_S1024x256_1_0_0_1_n_n.contr.Idx) :
    (dot_S1024x64_S64x256_S1024x256_1_0_0_1_n_n.lhsIdx i q 0).val = (i 0).val := by
  unfold DotDims.lhsIdx
  rw [dif_neg (show ¬(0 : Fin S1024x64.rank) ∈ dot_S1024x64_S64x256_S1024x256_1_0_0_1_n_n.lhsBatch by decide), dif_pos (show (0 : Fin S1024x64.rank) ∈ dot_S1024x64_S64x256_S1024x256_1_0_0_1_n_n.lhsNonContracting by decide)]
  rfl
/-- Tokens into a 64 × 256 matrix: the left operand's column is the contracted coordinate. -/
theorem lhs_hid_1 (i : S1024x256.Idx) (q : dot_S1024x64_S64x256_S1024x256_1_0_0_1_n_n.contr.Idx) :
    (dot_S1024x64_S64x256_S1024x256_1_0_0_1_n_n.lhsIdx i q 1).val = (q ⟨0, by decide⟩).val :=
  dot_S1024x64_S64x256_S1024x256_1_0_0_1_n_n.lhsIdx_val_of_single rfl i q
/-- Tokens into a 64 × 256 matrix: the right operand's row is the contracted coordinate. -/
theorem rhs_hid_0 (i : S1024x256.Idx) (q : dot_S1024x64_S64x256_S1024x256_1_0_0_1_n_n.contr.Idx) :
    (dot_S1024x64_S64x256_S1024x256_1_0_0_1_n_n.rhsIdx i q 0).val = (q ⟨0, by decide⟩).val :=
  dot_S1024x64_S64x256_S1024x256_1_0_0_1_n_n.rhsIdx_val_of_single rfl i q
/-- Tokens into a 64 × 256 matrix: the right operand's column is the output's column. -/
theorem rhs_hid_1 (i : S1024x256.Idx) (q : dot_S1024x64_S64x256_S1024x256_1_0_0_1_n_n.contr.Idx) :
    (dot_S1024x64_S64x256_S1024x256_1_0_0_1_n_n.rhsIdx i q 1).val = (i 1).val := by
  unfold DotDims.rhsIdx
  rw [dif_neg (show ¬(1 : Fin S64x256.rank) ∈ dot_S1024x64_S64x256_S1024x256_1_0_0_1_n_n.rhsBatch by decide), dif_pos (show (1 : Fin S64x256.rank) ∈ dot_S1024x64_S64x256_S1024x256_1_0_0_1_n_n.rhsNonContracting by decide)]
  rfl

/-- Tokens times a 64 × 256 matrix into the zero splat, at (n, c): the sum over the token's 64 entries. -/
theorem hid_matmul_apply {φ₁ φ₂ : FTy} (a : FVec Ideal S1024x64 φ₁) (b : FVec Ideal S64x256 φ₂) (n : Fin 1024) (c : Fin 256) :
    matmul dot_S1024x64_S64x256_S1024x256_1_0_0_1_n_n none a b (constant (F := Ideal) S1024x256 .f32 0x00000000#32) (ix2 n c)
      = ∑ k : Fin 64, a (ix2 n k) * b (ix2 k c) := by
  simp only [matmul]
  rw [Ideal.matmul_constant_zero_apply, ← Equiv.sum_comp (contrEquiv1 dot_S1024x64_S64x256_S1024x256_1_0_0_1_n_n 64 rfl rfl).symm]
  refine Finset.sum_congr rfl fun k _ => ?_
  have hk := contrEquiv1_symm_val dot_S1024x64_S64x256_S1024x256_1_0_0_1_n_n 64 rfl rfl k
  have el : dot_S1024x64_S64x256_S1024x256_1_0_0_1_n_n.lhsIdx (ix2 n c) ((contrEquiv1 dot_S1024x64_S64x256_S1024x256_1_0_0_1_n_n 64 rfl rfl).symm k) = ix2 n k := funext fun ax => Fin.ext (by
    match ax with
    | ⟨0, _⟩ => exact lhs_hid_0 _ _
    | ⟨1, _⟩ => exact (lhs_hid_1 _ _).trans hk)
  have er : dot_S1024x64_S64x256_S1024x256_1_0_0_1_n_n.rhsIdx (ix2 n c) ((contrEquiv1 dot_S1024x64_S64x256_S1024x256_1_0_0_1_n_n 64 rfl rfl).symm k) = ix2 k c := funext fun ax => Fin.ext (by
    match ax with
    | ⟨0, _⟩ => exact (rhs_hid_0 _ _).trans hk
    | ⟨1, _⟩ => exact rhs_hid_1 _ _)
  rw [el, er]

/-- Hidden units into the 256 × 64 matrix: the left operand's row is the output's row. -/
theorem lhs_proj_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
/-- Hidden units into the 256 × 64 matrix: the left operand's column is the contracted coordinate. -/
theorem lhs_proj_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
/-- Hidden units into the 256 × 64 matrix: the right operand's row is the contracted coordinate. -/
theorem rhs_proj_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
/-- Hidden units into the 256 × 64 matrix: the right operand's column is the output's column. -/
theorem rhs_proj_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- Hidden units times the 256 × 64 matrix into the zero splat, at (n, c): the sum over the 256 hidden units. -/
theorem proj_matmul_apply {φ₁ φ₂ : FTy} (a : FVec Ideal S1024x256 φ₁) (b : FVec Ideal S256x64 φ₂) (n : Fin 1024) (c : Fin 64) :
    matmul dot_S1024x256_S256x64_S1024x64_1_0_0_1_n_n none a b (constant (F := Ideal) S1024x64 .f32 0x00000000#32) (ix2 n c)
      = ∑ k : Fin 256, a (ix2 n k) * b (ix2 k c) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 n c) ((contrEquiv1 dot_S1024x256_S256x64_S1024x64_1_0_0_1_n_n 256 rfl rfl).symm k) = ix2 n k := funext fun ax => Fin.ext (by
    match ax with
    | ⟨0, _⟩ => exact lhs_proj_0 _ _
    | ⟨1, _⟩ => exact (lhs_proj_1 _ _).trans hk)
  have er : dot_S1024x256_S256x64_S1024x64_1_0_0_1_n_n.rhsIdx (ix2 n c) ((contrEquiv1 dot_S1024x256_S256x64_S1024x64_1_0_0_1_n_n 256 rfl rfl).symm k) = ix2 k c := funext fun ax => Fin.ext (by
    match ax with
    | ⟨0, _⟩ => exact (rhs_proj_0 _ _).trans hk
    | ⟨1, _⟩ => exact rhs_proj_1 _ _)
  rw [el, er]

/-! ## One token through the gated unit

The chain is stated over whole arrays `x` (the tokens, one per row), `s` (the scale row), `g`, `v` (the two 64 × 256
matrices) and `f` (the 256 × 64 matrix), whatever they were read from, and read at one row `n`. -/

section Chain
variable (x : FVec Ideal S1024x64 .f32) (s : FVec Ideal S1x64 .f32)
  (hr : S1024x64.Reduces [1] S1024) (hφ : FKind.Formats .f32) (hacc : (0x00000000#32 : BitVec 32) = 0x00000000#32)
  (h1 : S1024.ShapeCasts S1024x1) (hb : S1024x1.Broadcasts S1024x64) (hb2 : S1x64.Broadcasts S1024x64)
  (ht : FTy.bits .bf16 < FTy.bits .f32)

/-- Every token scaled by the reciprocal root of its mean square plus the small term, and by the scale row. -/
abbrev xnVec : FVec Ideal S1024x64 .f32 :=
  mulf
    (mulf x
      (broadcastTo S1024x64
        (rsqrt
          (addf
            (divf (shapeCast S1024x1 (multiReduction .add [1] S1024 (mulf x x) 0x00000000#32 hr hφ hacc) h1)
              (broadcast S1024x1 (Scalar.ofBits (F := Ideal) .f32 0x42800000#32)))
            (broadcast S1024x1 (Scalar.ofBits (F := Ideal) .f32 0x358637BD#32)))) hb))
    (broadcastTo S1024x64 s hb2)

/-- Row n, entry d of the scaled tokens is the specification's scaled token n at d: the row's sum of squares is a
    plain sum, kept as a column and laid across the row; the scale row is laid under every token. -/
theorem xnVec_apply (n : Fin 1024) (d : Fin 64) :
    xnVec x s hr hφ hacc h1 hb hb2 (ix2 n d)
      = tokXn (fun d' : Fin 64 => x (ix2 n d')) (fun d' : Fin 64 => s (ix2 (0 : Fin 1) d')) d := by
  unfold tokXn tokRr
  refine (mulf_apply _ _ _).trans ?_
  refine congrArg₂ (· * ·) ?_ (broadcastTo_1b_ab_apply s hb2 n d)
  refine (mulf_apply _ _ _).trans ?_
  refine congrArg₂ (· * ·) rfl ?_
  refine (LibColumn.broadcastTo_a1_ab_apply _ hb n d).trans ?_
  refine (rsqrt_apply _ _).trans (congrArg Ideal.rsqrt ?_)
  refine (addf_apply _ _ _).trans ?_
  refine congrArg₂ (· + ·) ?_ rfl
  refine (divf_apply _ _ _).trans ?_
  refine congrArg₂ Ideal.div ?_ rfl
  refine (LibColumn.shapeCast_a_a1_apply _ h1 n 0).trans ?_
  exact sumAxis1_apply _ hr hφ hacc n

/-- The scaled tokens, narrowed, times a narrowed 64 × 256 matrix. -/
abbrev dotVec (w : FVec Ideal S64x256 .f32) : FVec Ideal S1024x256 .f32 :=
  matmul dot_S1024x64_S64x256_S1024x256_1_0_0_1_n_n none (truncf .bf16 (xnVec x s hr hφ hacc h1 hb hb2) ht) (truncf .bf16 w ht)
    (constant (F := Ideal) S1024x256 .f32 0x00000000#32)

/-- At (n, h) it is the specification's product of scaled token n with column h of the matrix. -/
theorem dotVec_apply (w : FVec Ideal S64x256 .f32) (n : Fin 1024) (h : Fin 256) :
    dotVec x s hr hφ hacc h1 hb hb2 ht w (ix2 n h)
      = tokDot (fun d' : Fin 64 => x (ix2 n d')) (fun d' : Fin 64 => s (ix2 (0 : Fin 1) d'))
          (fun (d' : Fin 64) (h' : Fin 256) => w (ix2 d' h')) h := by
  unfold tokDot
  refine (hid_matmul_apply _ _ n h).trans ?_
  refine Finset.sum_congr rfl fun d _ => ?_
  refine congrArg₂ (· * ·) ?_ rfl
  exact xnVec_apply x s hr hφ hacc h1 hb hb2 n d

/-- Gate times logistic of gate times value, narrowed, times the narrowed 256 × 64 matrix, plus the tokens. -/
abbrev outVec (g v : FVec Ideal S64x256 .f32) (f : FVec Ideal S256x64 .f32) : FVec Ideal S1024x64 .f32 :=
  addf
    (matmul dot_S1024x256_S256x64_S1024x64_1_0_0_1_n_n none
      (truncf .bf16
        (mulf
          (mulf (dotVec x s hr hφ hacc h1 hb hb2 ht g) (logistic (dotVec x s hr hφ hacc h1 hb hb2 ht g)))
          (dotVec x s hr hφ hacc h1 hb hb2 ht v)) ht)
      (truncf .bf16 f ht) (constant (F := Ideal) S1024x64 .f32 0x00000000#32))
    x

/-- At (n, d) it is the specification's output of token n at d. -/
theorem outVec_apply (g v : FVec Ideal S64x256 .f32) (f : FVec Ideal S256x64 .f32) (n : Fin 1024) (d : Fin 64) :
    outVec x s hr hφ hacc h1 hb hb2 ht g v f (ix2 n d)
      = tokOut (fun d' : Fin 64 => x (ix2 n d')) (fun d' : Fin 64 => s (ix2 (0 : Fin 1) d'))
          (fun (d' : Fin 64) (h : Fin 256) => g (ix2 d' h)) (fun (d' : Fin 64) (h : Fin 256) => v (ix2 d' h))
          (fun (h : Fin 256) (d' : Fin 64) => f (ix2 h d')) d := by
  unfold tokOut
  refine (addf_apply _ _ _).trans ?_
  refine congrArg₂ (· + ·) ?_ rfl
  refine (proj_matmul_apply _ _ n d).trans ?_
  refine Finset.sum_congr rfl fun h _ => ?_
  refine congrArg₂ (· * ·) ?_ rfl
  unfold tokHid
  refine (mulf_apply _ _ (ix2 n h)).trans ?_
  refine congrArg₂ (· * ·) ?_ (dotVec_apply x s hr hφ hacc h1 hb hb2 ht v n h)
  refine (mulf_apply _ _ (ix2 n h)).trans ?_
  refine congrArg₂ (· * ·) (dotVec_apply x s hr hφ hacc h1 hb hb2 ht g n h) ?_
  exact (logistic_apply _ _).trans (congrArg Ideal.logistic (dotVec_apply x s hr hφ hacc h1 hb hb2 ht g n h))

end Chain

/-- The fourth store: the result block at token n, entry d. The block's leading unit axis is added on the way out and
    dropped on the way in; the scale row's cast is the identity. -/
theorem out_apply (v3 : Vec Ideal S1x1024x64 .f32) (v15 : Vec Ideal S1x64 .f32) (v20 v23 : Vec Ideal S64x256 .f32) (v30 : Vec Ideal S256x64 .f32) (n : Fin 1024) (d : Fin 64) :
    k1_pay1 (F := Ideal) (k1_pay6 (F := Ideal) v3 v15 v20 v23 v30) (ix3 (0 : Fin 1) n d)
      = tokOut (fun d' : Fin 64 => v3 (ix3 (0 : Fin 1) n d')) (fun d' : Fin 64 => v15 (ix2 (0 : Fin 1) d'))
          (fun (d' : Fin 64) (h : Fin 256) => v20 (ix2 d' h)) (fun (d' : Fin 64) (h : Fin 256) => v23 (ix2 d' h))
          (fun (h : Fin 256) (d' : Fin 64) => v30 (ix2 h d')) d := by
  unfold k1_pay1 k1_pay6
  refine (shapeCast_ab_1ab_apply _ _ 0 n d).trans ?_
  rw [shapeCast_self v15]
  refine (outVec_apply (shapeCast S1024x64 v3 shapeCasts_S1x1024x64_S1024x64) v15 _ _ _ _ _ _ _ v20 v23 v30 n d).trans ?_
  exact congrArg (fun xt : Fin 64 → EReal => tokOut xt (fun d' : Fin 64 => v15 (ix2 (0 : Fin 1) d'))
      (fun (d' : Fin 64) (h : Fin 256) => v20 (ix2 d' h)) (fun (d' : Fin 64) (h : Fin 256) => v23 (ix2 d' h))
      (fun (h : Fin 256) (d' : Fin 64) => v30 (ix2 h d')) d)
    (funext fun d' => shapeCast_1ab_ab_apply v3 shapeCasts_S1x1024x64_S1024x64 n d')

end Cert.KernelIdeal.Pay

end
-- ==== Proof.KI.ValB2.lean ====
/-
  What the gated unit's region leaves in the result array, entry by entry, over the extended reals.

  The region's 256 points are the 64 samples times the 4 tiles of 1024 tokens. Point t writes back the body's result of
  its five blocks: tile t % 4 of sample t / 4's tokens, that sample's three weight matrices and the scale row. Read at a
  token and an entry, the body's result is the specification's token function of that token's 64 numbers, the scale row
  and the three matrices each normalised column by column; each block entry is the array's entry at block index times
  block size plus the coordinate inside the block; and the 256 output blocks tile the result array, entry (i, n, d) lying
  in the block of point 4 i + n / 1024. So the array ends holding, at (i, n, d), the token function of token (i, n) of the
  token array, the scale array's row and sample i's three matrices normalised.
-/
import proofs.«143842_j63823214019112_1_alg».proof.Proof.KI.ValB1
import proofs.«143842_j63823214019112_1_alg».proof.Proof.PayB
import proofs.«143842_j63823214019112_1_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Glu

/-! ## One output block entry, from the five blocks -/

/-- The body's result at token n', entry d of the block: the token function of that token of the token block, the scale
    block's row and the three matrix blocks normalised column by column. -/
theorem point1_apply (x0 : Vec Ideal S1x1024x64 .f32) (x1 x2 : Vec Ideal S1x64x256 .f32) (x3 : Vec Ideal S1x256x64 .f32)
    (x4 : Vec Ideal S1x64 .f32) (n' : Fin 1024) (d : Fin 64) :
    k1_pay1 (F := Ideal) (k1_pay6 (F := Ideal) x0 x4 (k1_pay2 (F := Ideal) x1) (k1_pay3 (F := Ideal) x2)
        (k1_pay5 (F := Ideal) (k1_pay4 (F := Ideal) x3))) (ix3 (0 : Fin 1) n' d)
      = tokOut (fun d' : Fin 64 => x0 (ix3 (0 : Fin 1) n' d')) (fun d' : Fin 64 => x4 (ix2 (0 : Fin 1) d'))
          (colNormalize fun (d' : Fin 64) (h : Fin 256) => x1 (ix3 (0 : Fin 1) d' h))
          (colNormalize fun (d' : Fin 64) (h : Fin 256) => x2 (ix3 (0 : Fin 1) d' h))
          (colNormalize fun (h : Fin 256) (d' : Fin 64) => x3 (ix3 (0 : Fin 1) h d')) d := by
  refine (Pay.out_apply x0 x4 (k1_pay2 (F := Ideal) x1) (k1_pay3 (F := Ideal) x2) (k1_pay5 (F := Ideal) (k1_pay4 (F := Ideal) x3)) n' d).trans ?_
  have eg : (fun (d' : Fin 64) (h : Fin 256) => k1_pay2 (F := Ideal) x1 (ix2 d' h))
      = colNormalize fun (d' : Fin 64) (h : Fin 256) => x1 (ix3 (0 : Fin 1) d' h) :=
    funext fun d' => funext fun h => Pay.gn_apply x1 d' h
  have ev : (fun (d' : Fin 64) (h : Fin 256) => k1_pay3 (F := Ideal) x2 (ix2 d' h))
      = colNormalize fun (d' : Fin 64) (h : Fin 256) => x2 (ix3 (0 : Fin 1) d' h) :=
    funext fun d' => funext fun h => Pay.vn_apply x2 d' h
  have ef : (fun (h : Fin 256) (d' : Fin 64) => k1_pay5 (F := Ideal) (k1_pay4 (F := Ideal) x3) (ix2 h d'))
      = colNormalize fun (h : Fin 256) (d' : Fin 64) => x3 (ix3 (0 : Fin 1) h d') :=
    funext fun h => funext fun d' => Pay.fn_apply x3 h d'
  rw [eg, ev, ef]

/-- The same with each block entry named as an entry of an array: token n' of the block is token n of sample i, the
    matrix blocks are sample i's matrices, the scale block is the scale array. -/
theorem point1_apply_of (x0 : Vec Ideal S1x1024x64 .f32) (x1 x2 : Vec Ideal S1x64x256 .f32) (x3 : Vec Ideal S1x256x64 .f32)
    (x4 : Vec Ideal S1x64 .f32) (A0 : S64x4096x64.Idx → EReal) (A1 A2 : S64x64x256.Idx → EReal)
    (A3 : S64x256x64.Idx → EReal) (A4 : S1x64.Idx → EReal) (i : Fin 64) (n : Fin 4096) (n' : Fin 1024) (d : Fin 64)
    (h0 : ∀ d' : Fin 64, x0 (ix3 (0 : Fin 1) n' d') = A0 (ix3 i n d'))
    (h1 : ∀ (d' : Fin 64) (h : Fin 256), x1 (ix3 (0 : Fin 1) d' h) = A1 (ix3 i d' h))
    (h2 : ∀ (d' : Fin 64) (h : Fin 256), x2 (ix3 (0 : Fin 1) d' h) = A2 (ix3 i d' h))
    (h3 : ∀ (h : Fin 256) (d' : Fin 64), x3 (ix3 (0 : Fin 1) h d') = A3 (ix3 i h d'))
    (h4 : ∀ d' : Fin 64, x4 (ix2 (0 : Fin 1) d') = A4 (ix2 (0 : Fin 1) d')) :
    k1_pay1 (F := Ideal) (k1_pay6 (F := Ideal) x0 x4 (k1_pay2 (F := Ideal) x1) (k1_pay3 (F := Ideal) x2)
        (k1_pay5 (F := Ideal) (k1_pay4 (F := Ideal) x3))) (ix3 (0 : Fin 1) n' d)
      = tokOut (fun d' : Fin 64 => A0 (ix3 i n d')) (fun d' : Fin 64 => A4 (ix2 (0 : Fin 1) d'))
          (colNormalize fun (d' : Fin 64) (h : Fin 256) => A1 (ix3 i d' h))
          (colNormalize fun (d' : Fin 64) (h : Fin 256) => A2 (ix3 i d' h))
          (colNormalize fun (h : Fin 256) (d' : Fin 64) => A3 (ix3 i h d')) d := by
  have e0 : (fun d' : Fin 64 => x0 (ix3 (0 : Fin 1) n' d')) = fun d' : Fin 64 => A0 (ix3 i n d') := funext h0
  have e1 : (fun (d' : Fin 64) (h : Fin 256) => x1 (ix3 (0 : Fin 1) d' h)) = fun (d' : Fin 64) (h : Fin 256) => A1 (ix3 i d' h) :=
    funext fun d' => funext fun h => h1 d' h
  have e2 : (fun (d' : Fin 64) (h : Fin 256) => x2 (ix3 (0 : Fin 1) d' h)) = fun (d' : Fin 64) (h : Fin 256) => A2 (ix3 i d' h) :=
    funext fun d' => funext fun h => h2 d' h
  have e3 : (fun (h : Fin 256) (d' : Fin 64) => x3 (ix3 (0 : Fin 1) h d')) = fun (h : Fin 256) (d' : Fin 64) => A3 (ix3 i h d') :=
    funext fun h => funext fun d' => h3 h d'
  have e4 : (fun d' : Fin 64 => x4 (ix2 (0 : Fin 1) d')) = fun d' : Fin 64 => A4 (ix2 (0 : Fin 1) d') := funext h4
  rw [point1_apply, e0, e1, e2, e3, e4]

/-! ## The block index maps over the 256 points -/

/-- The token window and the output window sit at (sample, tile, 0). -/
theorem widx1_0 : ∀ t : Fin cfg1.N, win1_0.index t (0 : Fin 3) = t.val / 4 ∧ win1_0.index t (1 : Fin 3) = t.val % 4
    ∧ win1_0.index t (2 : Fin 3) = 0 :=
  (by decide +kernel : ∀ t : Fin grid1.N, win1_0.index t (0 : Fin 3) = t.val / 4 ∧ win1_0.index t (1 : Fin 3) = t.val % 4
    ∧ win1_0.index t (2 : Fin 3) = 0)
theorem widx1_5 : ∀ t : Fin cfg1.N, win1_5.index t (0 : Fin 3) = t.val / 4 ∧ win1_5.index t (1 : Fin 3) = t.val % 4
    ∧ win1_5.index t (2 : Fin 3) = 0 :=
  (by decide +kernel : ∀ t : Fin grid1.N, win1_5.index t (0 : Fin 3) = t.val / 4 ∧ win1_5.index t (1 : Fin 3) = t.val % 4
    ∧ win1_5.index t (2 : Fin 3) = 0)
/-- The three matrix windows sit at (sample, 0, 0). -/
theorem widx1_1 : ∀ t : Fin cfg1.N, win1_1.index t (0 : Fin 3) = t.val / 4 ∧ win1_1.index t (1 : Fin 3) = 0
    ∧ win1_1.index t (2 : Fin 3) = 0 :=
  (by decide +kernel : ∀ t : Fin grid1.N, win1_1.index t (0 : Fin 3) = t.val / 4 ∧ win1_1.index t (1 : Fin 3) = 0
    ∧ win1_1.index t (2 : Fin 3) = 0)
theorem widx1_2 : ∀ t : Fin cfg1.N, win1_2.index t (0 : Fin 3) = t.val / 4 ∧ win1_2.index t (1 : Fin 3) = 0
    ∧ win1_2.index t (2 : Fin 3) = 0 :=
  (by decide +kernel : ∀ t : Fin grid1.N, win1_2.index t (0 : Fin 3) = t.val / 4 ∧ win1_2.index t (1 : Fin 3) = 0
    ∧ win1_2.index t (2 : Fin 3) = 0)
theorem widx1_3 : ∀ t : Fin cfg1.N, win1_3.index t (0 : Fin 3) = t.val / 4 ∧ win1_3.index t (1 : Fin 3) = 0
    ∧ win1_3.index t (2 : Fin 3) = 0 :=
  (by decide +kernel : ∀ t : Fin grid1.N, win1_3.index t (0 : Fin 3) = t.val / 4 ∧ win1_3.index t (1 : Fin 3) = 0
    ∧ win1_3.index t (2 : Fin 3) = 0)
/-- The scale window never moves. -/
theorem widx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-! ## Each input block, read at an entry

A block's coordinate in its array is, on every axis, the block index times the block's size plus the coordinate inside the
block. -/

section
variable (V : (c : Dev nD) → (b : Ref sig .tc) → Buf (Elt Ideal) ((c : Thread nD τ).loc b))

/-- Token n', entry d' of point t's token block is token 1024 (t % 4) + n' of sample t / 4. -/
theorem iblk1_0_apply (c : Dev nD) (t : Fin cfg1.N) (n' : Fin 1024) (d' : Fin 64) (i : Fin 64) (n : Fin 4096)
    (hi : i.val = t.val / 4) (hn : n.val = 1024 * (t.val % 4) + n'.val) :
    (iblk1 V c 0 t : Vec Ideal S1x1024x64 .f32) (ix3 (0 : Fin 1) n' d') = (V c main_arg0 : S64x4096x64.Idx → EReal) (ix3 i n d') := by
  obtain ⟨e0, e1, e2⟩ := widx1_0 t
  unfold iblk1
  rw [View.read_apply]
  show (V c main_arg0 : S64x4096x64.Idx → EReal) _ = (V c main_arg0 : S64x4096x64.Idx → EReal) _
  congr 1
  funext a
  apply Fin.ext
  match a with
  | ⟨0, _⟩ => show win1_0.index t (0 : Fin 3) * 1 + 1 * 0 = i.val; omega
  | ⟨1, _⟩ => show win1_0.index t (1 : Fin 3) * 1024 + 1 * n'.val = n.val; omega
  | ⟨2, _⟩ => show win1_0.index t (2 : Fin 3) * 64 + 1 * d'.val = d'.val; omega

/-- Point t's gate block is sample t / 4's gate matrix. -/
theorem iblk1_1_apply (c : Dev nD) (t : Fin cfg1.N) (d' : Fin 64) (h : Fin 256) (i : Fin 64) (hi : i.val = t.val / 4) :
    (iblk1 V c 1 t : Vec Ideal S1x64x256 .f32) (ix3 (0 : Fin 1) d' h) = (V c main_v3 : S64x64x256.Idx → EReal) (ix3 i d' h) := by
  obtain ⟨e0, e1, e2⟩ := widx1_1 t
  unfold iblk1
  rw [View.read_apply]
  show (V c main_v3 : S64x64x256.Idx → EReal) _ = (V c main_v3 : S64x64x256.Idx → EReal) _
  congr 1
  funext a
  apply Fin.ext
  match a with
  | ⟨0, _⟩ => show win1_1.index t (0 : Fin 3) * 1 + 1 * 0 = i.val; omega
  | ⟨1, _⟩ => show win1_1.index t (1 : Fin 3) * 64 + 1 * d'.val = d'.val; omega
  | ⟨2, _⟩ => show win1_1.index t (2 : Fin 3) * 256 + 1 * h.val = h.val; omega

/-- Point t's value block is sample t / 4's value matrix. -/
theorem iblk1_2_apply (c : Dev nD) (t : Fin cfg1.N) (d' : Fin 64) (h : Fin 256) (i : Fin 64) (hi : i.val = t.val / 4) :
    (iblk1 V c 2 t : Vec Ideal S1x64x256 .f32) (ix3 (0 : Fin 1) d' h) = (V c main_v5 : S64x64x256.Idx → EReal) (ix3 i d' h) := by
  obtain ⟨e0, e1, e2⟩ := widx1_2 t
  unfold iblk1
  rw [View.read_apply]
  show (V c main_v5 : S64x64x256.Idx → EReal) _ = (V c main_v5 : S64x64x256.Idx → EReal) _
  congr 1
  funext a
  apply Fin.ext
  match a with
  | ⟨0, _⟩ => show win1_2.index t (0 : Fin 3) * 1 + 1 * 0 = i.val; omega
  | ⟨1, _⟩ => show win1_2.index t (1 : Fin 3) * 64 + 1 * d'.val = d'.val; omega
  | ⟨2, _⟩ => show win1_2.index t (2 : Fin 3) * 256 + 1 * h.val = h.val; omega

/-- Point t's projection block is sample t / 4's projection matrix. -/
theorem iblk1_3_apply (c : Dev nD) (t : Fin cfg1.N) (h : Fin 256) (d' : Fin 64) (i : Fin 64) (hi : i.val = t.val / 4) :
    (iblk1 V c 3 t : Vec Ideal S1x256x64 .f32) (ix3 (0 : Fin 1) h d') = (V c main_v7 : S64x256x64.Idx → EReal) (ix3 i h d') := by
  obtain ⟨e0, e1, e2⟩ := widx1_3 t
  unfold iblk1
  rw [View.read_apply]
  show (V c main_v7 : S64x256x64.Idx → EReal) _ = (V c main_v7 : S64x256x64.Idx → EReal) _
  congr 1
  funext a
  apply Fin.ext
  match a with
  | ⟨0, _⟩ => show win1_3.index t (0 : Fin 3) * 1 + 1 * 0 = i.val; omega
  | ⟨1, _⟩ => show win1_3.index t (1 : Fin 3) * 256 + 1 * h.val = h.val; omega
  | ⟨2, _⟩ => show win1_3.index t (2 : Fin 3) * 64 + 1 * d'.val = d'.val; omega

/-- Every point's scale block is the scale array. -/
theorem iblk1_4_apply (c : Dev nD) (t : Fin cfg1.N) (d' : Fin 64) :
    (iblk1 V c 4 t : Vec Ideal S1x64 .f32) (ix2 (0 : Fin 1) d') = (V c main_v8 : S1x64.Idx → EReal) (ix2 (0 : Fin 1) d') := by
  obtain ⟨e0, e1⟩ := widx1_4 t
  unfold iblk1
  rw [View.read_apply]
  show (V c main_v8 : S1x64.Idx → EReal) _ = (V c main_v8 : S1x64.Idx → EReal) _
  congr 1
  funext a
  apply Fin.ext
  match a with
  | ⟨0, _⟩ => show win1_4.index t (0 : Fin 2) * 1 + 1 * 0 = 0; omega
  | ⟨1, _⟩ => show win1_4.index t (1 : Fin 2) * 64 + 1 * d'.val = d'.val; omega

end

/-! ## The result array -/

section
variable (V : (c : Dev nD) → (b : Ref sig .tc) → Buf (Elt Ideal) ((c : Thread nD τ).loc b))

/-- The result at sample i, token n, entry d: the token function of that token, the scale array's row and sample i's three
    matrices normalised column by column. -/
def outAt1 (c : Dev nD) (i : Fin 64) (n : Fin 4096) (d : Fin 64) : EReal :=
  tokOut (fun d' : Fin 64 => (V c main_arg0 : S64x4096x64.Idx → EReal) (ix3 i n d'))
    (fun d' : Fin 64 => (V c main_v8 : S1x64.Idx → EReal) (ix2 (0 : Fin 1) d'))
    (colNormalize fun (d' : Fin 64) (h : Fin 256) => (V c main_v3 : S64x64x256.Idx → EReal) (ix3 i d' h))
    (colNormalize fun (d' : Fin 64) (h : Fin 256) => (V c main_v5 : S64x64x256.Idx → EReal) (ix3 i d' h))
    (colNormalize fun (h : Fin 256) (d' : Fin 64) => (V c main_v7 : S64x256x64.Idx → EReal) (ix3 i h d')) d

/-- The whole result array as one function of its index. -/
def outArr1 (c : Dev nD) : S64x4096x64.Idx → EReal := fun j => outAt1 V c (j 0) (j 1) (j 2)

theorem outArr1_ix3 (c : Dev nD) (i : Fin 64) (n : Fin 4096) (d : Fin 64) : outArr1 V c (ix3 i n d) = outAt1 V c i n d := rfl

/-- What point t writes back is its block of that one function. -/
theorem flushed1_eq (c : Dev nD) (t : Fin cfg1.N) :
    (dat1 V c).flushed 5 t = ((cfg1.win 5).blk t).view.read (Elt Ideal) (outArr1 V c) := by
  show (cfg1.win 5).cut (grid1.coords t) ((dat1 V c).after 5 t) = _
  rw [after1_5, out_closed]
  have hN : grid1.N = 256 := N_1
  have ht : t.val < 256 := hN ▸ t.isLt
  obtain ⟨e0, e1, e2⟩ := widx1_5 t
  funext j
  have b0 : (j 0).val < 1 := Nat.lt_of_lt_of_le (j 0).isLt (win1_5.xsize_le (grid1.coords t) 0)
  have b1 : (j 1).val < 1024 := Nat.lt_of_lt_of_le (j 1).isLt (win1_5.xsize_le (grid1.coords t) 1)
  have b2 : (j 2).val < 64 := Nat.lt_of_lt_of_le (j 2).isLt (win1_5.xsize_le (grid1.coords t) 2)
  have hx : win1_5.xinj (grid1.coords t) j = ix3 (0 : Fin 1) (⟨(j 1).val, b1⟩ : Fin 1024) (⟨(j 2).val, b2⟩ : Fin 64) :=
    funext fun a => Fin.ext (by
      match a with
      | ⟨0, _⟩ => show (j 0).val = 0; omega
      | ⟨1, _⟩ => rfl
      | ⟨2, _⟩ => rfl)
  have hemb : ((cfg1.win 5).blk t).view.emb j
      = ix3 (⟨t.val / 4, by omega⟩ : Fin 64) (⟨1024 * (t.val % 4) + (j 1).val, by omega⟩ : Fin 4096) (⟨(j 2).val, b2⟩ : Fin 64) :=
    funext fun a => Fin.ext (by
      match a with
      | ⟨0, _⟩ => show win1_5.index t (0 : Fin 3) * 1 + 1 * (j 0).val = t.val / 4; omega
      | ⟨1, _⟩ => show win1_5.index t (1 : Fin 3) * 1024 + 1 * (j 1).val = 1024 * (t.val % 4) + (j 1).val; omega
      | ⟨2, _⟩ => show win1_5.index t (2 : Fin 3) * 64 + 1 * (j 2).val = (j 2).val; omega)
  show k1_pay1 (F := Ideal) (k1_pay6 (F := Ideal) (iblk1 V c 0 t) (iblk1 V c 4 t) (k1_pay2 (F := Ideal) (iblk1 V c 1 t))
        (k1_pay3 (F := Ideal) (iblk1 V c 2 t)) (k1_pay5 (F := Ideal) (k1_pay4 (F := Ideal) (iblk1 V c 3 t))))
      (win1_5.xinj (grid1.coords t) j) = outArr1 V c (((cfg1.win 5).blk t).view.emb j)
  rw [hx, hemb, outArr1_ix3]
  exact point1_apply_of (iblk1 V c 0 t) (iblk1 V c 1 t) (iblk1 V c 2 t) (iblk1 V c 3 t) (iblk1 V c 4 t)
    (V c main_arg0) (V c main_v3) (V c main_v5) (V c main_v7) (V c main_v8)
    (⟨t.val / 4, by omega⟩ : Fin 64) (⟨1024 * (t.val % 4) + (j 1).val, by omega⟩ : Fin 4096) (⟨(j 1).val, b1⟩ : Fin 1024) (⟨(j 2).val, b2⟩ : Fin 64)
    (fun d' => iblk1_0_apply V c t _ d' _ _ rfl rfl)
    (fun d' h => iblk1_1_apply V c t d' h _ rfl)
    (fun d' h => iblk1_2_apply V c t d' h _ rfl)
    (fun h d' => iblk1_3_apply V c t h d' _ rfl)
    (fun d' => iblk1_4_apply V c t d')

/-- Entry (i, n, d) of the result array lies in the block of point 4 i + n / 1024: the 256 blocks tile the array. -/
theorem tiles1_5 (j : S64x4096x64.Idx) :
    ∃ t : Fin cfg1.N, (cfg1.win 5).flush t = true ∧ j ∈ ((cfg1.win 5).blk t).view.set := by
  have hN : grid1.N = 256 := N_1
  have h0 : (j 0).val < 64 := (j 0).isLt
  have h1 : (j 1).val < 4096 := (j 1).isLt
  have h2 : (j 2).val < 64 := (j 2).isLt
  have htN : 4 * (j 0).val + (j 1).val / 1024 < grid1.N := by omega
  obtain ⟨e0, e1, e2⟩ := widx1_5 ⟨4 * (j 0).val + (j 1).val / 1024, htN⟩
  refine ⟨⟨4 * (j 0).val + (j 1).val / 1024, htN⟩, flush1_5 _, ?_⟩
  show j ∈ ((View.whole main_v9).slice (win1_5.rect ⟨4 * (j 0).val + (j 1).val / 1024, htN⟩)).set
  rw [View.set_slice_whole, Rect.mem_set_unit]
  intro a
  match a with
  | ⟨0, _⟩ =>
    show win1_5.index ⟨4 * (j 0).val + (j 1).val / 1024, htN⟩ (0 : Fin 3) * 1 ≤ (j 0).val
      ∧ (j 0).val < win1_5.index ⟨4 * (j 0).val + (j 1).val / 1024, htN⟩ (0 : Fin 3) * 1 + 1
    dsimp only at e0 e1 e2
    omega
  | ⟨1, _⟩ =>
    show win1_5.index ⟨4 * (j 0).val + (j 1).val / 1024, htN⟩ (1 : Fin 3) * 1024 ≤ (j 1).val
      ∧ (j 1).val < win1_5.index ⟨4 * (j 0).val + (j 1).val / 1024, htN⟩ (1 : Fin 3) * 1024 + 1024
    dsimp only at e0 e1 e2
    omega
  | ⟨2, _⟩ =>
    show win1_5.index ⟨4 * (j 0).val + (j 1).val / 1024, htN⟩ (2 : Fin 3) * 64 ≤ (j 2).val
      ∧ (j 2).val < win1_5.index ⟨4 * (j 0).val + (j 1).val / 1024, htN⟩ (2 : Fin 3) * 64 + 64
    dsimp only at e0 e1 e2
    omega

/-- After the region the result array holds that function everywhere. -/
theorem final1 (c : Dev nD) : (dat1 V c).arrAt 5 cfg1.N = outArr1 V c :=
  (dat1 V c).arrAt_eq_of_cover 5 (outArr1 V c) (fun t _ => flushed1_eq V c t) (tiles1_5)

end

/-- THE RESULT ARRAY AFTER THE REGION, entry by entry, whatever the arrays held when the region began: the token function
    of token (i, n) of the token array, the scale array's row and sample i's three matrices each normalised column by
    column. -/
theorem final1_apply (V : (c : Dev nD) → (b : Ref sig .tc) → Buf (Elt Ideal) ((c : Thread nD τ).loc b)) (c : Dev nD)
    (i : Fin 64) (n : Fin 4096) (d : Fin 64) :
    ((dat1 V c).arrAt 5 cfg1.N : S64x4096x64.Idx → EReal) (ix3 i n d)
      = Cert.Glu.tokOut (fun d' : Fin 64 => (V c main_arg0 : S64x4096x64.Idx → EReal) (ix3 i n d'))
          (fun d' : Fin 64 => (V c main_v8 : S1x64.Idx → EReal) (ix2 (0 : Fin 1) d'))
          (Cert.Glu.colNormalize fun (d' : Fin 64) (h : Fin 256) => (V c main_v3 : S64x64x256.Idx → EReal) (ix3 i d' h))
          (Cert.Glu.colNormalize fun (d' : Fin 64) (h : Fin 256) => (V c main_v5 : S64x64x256.Idx → EReal) (ix3 i d' h))
          (Cert.Glu.colNormalize fun (h : Fin 256) (d' : Fin 64) => (V c main_v7 : S64x256x64.Idx → EReal) (ix3 i h d')) d :=
  congrFun (final1 V c) (ix3 i n d)

end Cert.KernelIdeal.Fr

end
-- ==== Proof.KI.ValH.lean ====
/-
  What the host leaves in the buffers the two kernel regions read, entry by entry over the extended reals.

  Before the hypernetwork region the bias vector of 49152 numbers is laid out as one row; the region's other two
  inputs, the sample matrix and the weight matrix, are still as launched. After that region its 64 × 49152 result is
  cut along its columns into three bands of 16384, and each band's rows are folded row-major: the first two bands into
  64 × 256 matrices per sample, the third into a 256 × 64 matrix per sample. A fold keeps an entry's position within
  its row, so entry (d, h) of a sample's 64 × 256 matrix is the band's column 256 d + h and entry (h, d) of its 256 × 64
  matrix is the band's column 64 h + d; the band's column j is the result's column (band offset) + j. Last, the scale
  vector of 64 numbers is laid out as one row; nothing before it wrote the scale, and nothing at all wrote the token
  array the gated unit reads.
-/
import proofs.«143842_j63823214019112_1_alg».proof.Proof.KI.FrRun
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-! ## Before the hypernetwork region -/

/-- The bias as one row: its entry (0, j) is the launched bias at j. -/
theorem v0_apply (j : Fin 49152) :
    (Rv1 m c main_v0 : S1x49152.Idx → EReal) (ix2 (0 : Fin 1) j)
      = (m ((c : Thread nD τ).loc main_arg3) : S49152.Idx → EReal) (ix1 j) := by
  have e : (Rv1 m c main_v0 : S1x49152.Idx → EReal)
      = shapeCast S1x49152 (m ((c : Thread nD τ).loc main_arg3) : S49152.Idx → EReal) shapeCasts_S49152_S1x49152 := by
    show StableHlo.after hostOps0 (Wv0 m c) (Proc.devRef .tc main_v0) = _
    after_results; rfl
  rw [e]
  exact shapeCast_a_1a_apply _ _ 0 j

/-- The sample matrix is as launched: the one host step writes only the bias row. -/
theorem arg1_at1 : Rv1 m c main_arg1 = m ((c : Thread nD τ).loc main_arg1) :=
  StableHlo.after_of_writes_sub hostOps0 _ hostOps0_writes (by decide)

/-- The weight matrix is as launched, for the same reason. -/
theorem arg2_at1 : Rv1 m c main_arg2 = m ((c : Thread nD τ).loc main_arg2) :=
  StableHlo.after_of_writes_sub hostOps0 _ hostOps0_writes (by decide)

/-! ## Between the regions: three column bands of the hypernetwork's result, each folded per sample

In each of the three, the fold is read first (the entry's row-major position in the folded shape equals its position
in the 64 × 16384 band: both are 16384 i plus the position within sample i's row), then the band (column j of the band
is column offset + j of the result). -/

/-- The first band folded to 64 × 256 per sample: entry (i, d, h) is the result's (i, 256 d + h). -/
theorem v3_apply (i d : Fin 64) (h : Fin 256) :
    (Rv3 m c main_v3 : S64x64x256.Idx → EReal) (ix3 i d h)
      = (Rv2 m c main_v1 : S64x49152.Idx → EReal) (ix2 i ⟨d.val * 256 + h.val, by omega⟩) := by
  have e : (Rv3 m c main_v3 : S64x64x256.Idx → EReal)
      = shapeCast S64x64x256 (extractStridedSlice S64x16384 ![0, 0] (Rv2 m c main_v1 : S64x49152.Idx → EReal)
          slices_S64x49152_S64x16384_0_0) shapeCasts_S64x16384_S64x64x256 := by
    show StableHlo.after hostOps1 (Wv2 m c) (Proc.devRef .tc main_v3) = _
    after_results; rfl
  rw [e]
  refine (shapeCast_apply _ _ (ix3 i d h) (ix2 i (⟨d.val * 256 + h.val, by omega⟩ : Fin 16384)) ?_).trans ?_
  · rw [Shape.rowMajor_val_two, Shape.rowMajor_val_three]
    show i.val * 16384 + (d.val * 256 + h.val) = (i.val * 64 + d.val) * 256 + h.val
    omega
  · exact slice2_axis1_apply 0 _ _ i _ _ (by show d.val * 256 + h.val = 0 + (d.val * 256 + h.val); omega)

/-- The second band folded to 64 × 256 per sample: entry (i, d, h) is the result's (i, 16384 + (256 d + h)). -/
theorem v5_apply (i d : Fin 64) (h : Fin 256) :
    (Rv3 m c main_v5 : S64x64x256.Idx → EReal) (ix3 i d h)
      = (Rv2 m c main_v1 : S64x49152.Idx → EReal) (ix2 i ⟨16384 + (d.val * 256 + h.val), by omega⟩) := by
  have e : (Rv3 m c main_v5 : S64x64x256.Idx → EReal)
      = shapeCast S64x64x256 (extractStridedSlice S64x16384 ![0, 16384] (Rv2 m c main_v1 : S64x49152.Idx → EReal)
          slices_S64x49152_S64x16384_0_16384) shapeCasts_S64x16384_S64x64x256 := by
    show StableHlo.after hostOps1 (Wv2 m c) (Proc.devRef .tc main_v5) = _
    after_results; rfl
  rw [e]
  refine (shapeCast_apply _ _ (ix3 i d h) (ix2 i (⟨d.val * 256 + h.val, by omega⟩ : Fin 16384)) ?_).trans ?_
  · rw [Shape.rowMajor_val_two, Shape.rowMajor_val_three]
    show i.val * 16384 + (d.val * 256 + h.val) = (i.val * 64 + d.val) * 256 + h.val
    omega
  · exact slice2_axis1_apply 16384 _ _ i _ _ rfl

/-- The third band folded to 256 × 64 per sample: entry (i, h, d) is the result's (i, 32768 + (64 h + d)). -/
theorem v7_apply (i : Fin 64) (h : Fin 256) (d : Fin 64) :
    (Rv3 m c main_v7 : S64x256x64.Idx → EReal) (ix3 i h d)
      = (Rv2 m c main_v1 : S64x49152.Idx → EReal) (ix2 i ⟨32768 + (h.val * 64 + d.val), by omega⟩) := by
  have e : (Rv3 m c main_v7 : S64x256x64.Idx → EReal)
      = shapeCast S64x256x64 (extractStridedSlice S64x16384 ![0, 32768] (Rv2 m c main_v1 : S64x49152.Idx → EReal)
          slices_S64x49152_S64x16384_0_32768) shapeCasts_S64x16384_S64x256x64 := by
    show StableHlo.after hostOps1 (Wv2 m c) (Proc.devRef .tc main_v7) = _
    after_results; rfl
  rw [e]
  refine (shapeCast_apply _ _ (ix3 i h d) (ix2 i (⟨h.val * 64 + d.val, by omega⟩ : Fin 16384)) ?_).trans ?_
  · rw [Shape.rowMajor_val_two, Shape.rowMajor_val_three]
    show i.val * 16384 + (h.val * 64 + d.val) = (i.val * 256 + h.val) * 64 + d.val
    omega
  · exact slice2_axis1_apply 32768 _ _ i _ _ rfl

/-! ## The scale and the token array at the gated unit's entry -/

/-- The scale as one row: its entry (0, d) is the launched scale at d. The scale is no array of the hypernetwork
    region and no earlier host step wrote it, so what is laid out is the launched vector. -/
theorem v8_apply (d : Fin 64) :
    (Rv3 m c main_v8 : S1x64.Idx → EReal) (ix2 (0 : Fin 1) d)
      = (m ((c : Thread nD τ).loc main_arg4) : S64.Idx → EReal) (ix1 d) := by
  have e : (Rv3 m c main_v8 : S1x64.Idx → EReal)
      = shapeCast S1x64 (Rv2 m c main_arg4 : S64.Idx → EReal) shapeCasts_S64_S1x64 := by
    show StableHlo.after hostOps1 (Wv2 m c) (Proc.devRef .tc main_v8) = _
    after_results; rfl
  have e4 : Rv2 m c main_arg4 = m ((c : Thread nD τ).loc main_arg4) :=
    calc Rv2 m c main_arg4
      _ = Wv1 m c (Proc.devRef .tc main_arg4) := Wv2_of_ne m c main_arg4 (by decide)
      _ = Wv0 m c (Proc.devRef .tc main_arg4) := StableHlo.after_of_writes_sub hostOps0 _ hostOps0_writes (by decide)
      _ = m ((c : Thread nD τ).loc main_arg4) := rfl
  rw [e, e4]
  exact shapeCast_a_1a_apply _ _ 0 d

/-- The token array is as launched: no host step writes it and it is no array of the hypernetwork region. -/
theorem arg0_at3 : Rv3 m c main_arg0 = m ((c : Thread nD τ).loc main_arg0) :=
  calc Rv3 m c main_arg0
    _ = Wv2 m c (Proc.devRef .tc main_arg0) := StableHlo.after_of_writes_sub hostOps1 _ hostOps1_writes (by decide)
    _ = Wv1 m c (Proc.devRef .tc main_arg0) := Wv2_of_ne m c main_arg0 (by decide)
    _ = Wv0 m c (Proc.devRef .tc main_arg0) := StableHlo.after_of_writes_sub hostOps0 _ hostOps0_writes (by decide)
    _ = m ((c : Thread nD τ).loc main_arg0) := rfl

end Cert.KernelIdeal.Fr

end
-- ==== Proof.KI.Bridge.lean ====
/-
  The idealized kernel's result array is the specification's function of the five arguments.

  The gated unit's region leaves in the result array, at token (i, n), the token through sample i's three weight
  matrices each normalised column by column — read off whatever the region found in its arrays. What it found is the
  host's re-laying of the hypernetwork region's result: matrix entry (d, h) of the first two is column d·256 + h of the
  sample's row in its first resp. second third, entry (h, d) of the last is column h·64 + d of the last third; and that
  row is `s i · W + b`, the bias having only been reshaped. The token array and the scale reach the region as launched.
  Putting the readings together gives `Cert.Glu.G` entry by entry.
-/
import proofs.«143842_j63823214019112_1_alg».proof.Proof.KI.FrRun
import proofs.«143842_j63823214019112_1_alg».proof.Proof.KI.ValA
import proofs.«143842_j63823214019112_1_alg».proof.Proof.KI.ValB2
import proofs.«143842_j63823214019112_1_alg».proof.Proof.KI.ValH
import proofs.«143842_j63823214019112_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The hypernetwork region's result array is the specification's row function: entry (i, j) is `∑ₖ s i k · W k j + b j`. -/
theorem v1_apply (i : Fin 64) (j : Fin 49152) :
    (Rv2 m c main_v1 : S64x49152.Idx → EReal) (ix2 i j)
      = Cert.Glu.mlp (m ((c.tc : Thread nD τ).loc main_arg1)) (m ((c.tc : Thread nD τ).loc main_arg2)) (m ((c.tc : Thread nD τ).loc main_arg3)) i j := by
  refine (congrFun (Wv2_arr m c 3) (ix2 i j)).trans ?_
  refine (final0_apply_of (Rv1 m) c (m ((c.tc : Thread nD τ).loc main_arg1)) (m ((c.tc : Thread nD τ).loc main_arg2)) (Rv1 m c main_v0)
    (arg1_at1 m c) (arg2_at1 m c) rfl i j).trans ?_
  rw [v0_apply m c j]
  rfl

/-- The result array is `G` of the arguments. -/
theorem result_eq :
    ((dat1 (Rv3 m) c).arrAt 5 cfg1.N : S64x4096x64.Idx → EReal)
      = Cert.Glu.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext j
  obtain ⟨i, n, d, rfl⟩ : ∃ (i : Fin 64) (n : Fin 4096) (d : Fin 64), j = ix3 i n d := ⟨j 0, j 1, j 2, eq_ix3 j⟩
  rw [final1_apply (Rv3 m) c i n d, Cert.Glu.G_ix3]
  unfold Cert.Glu.out
  have h0 : (fun d' : Fin 64 => (Rv3 m c main_arg0 : S64x4096x64.Idx → EReal) (ix3 i n d'))
      = fun d' : Fin 64 => (m ((c.tc : Thread nD τ).loc main_arg0) : S64x4096x64.Idx → EReal) (ix3 i n d') := by rw [arg0_at3]
  have h4 : (fun d' : Fin 64 => (Rv3 m c main_v8 : S1x64.Idx → EReal) (ix2 (0 : Fin 1) d'))
      = fun d' : Fin 64 => (m ((c.tc : Thread nD τ).loc main_arg4) : S64.Idx → EReal) (ix1 d') := funext fun d' => v8_apply m c d'
  have h1 : (fun (d' : Fin 64) (h : Fin 256) => (Rv3 m c main_v3 : S64x64x256.Idx → EReal) (ix3 i d' h))
      = Cert.Glu.gP (m ((c.tc : Thread nD τ).loc main_arg1)) (m ((c.tc : Thread nD τ).loc main_arg2)) (m ((c.tc : Thread nD τ).loc main_arg3)) i :=
    funext fun d' => funext fun h => (v3_apply m c i d' h).trans (v1_apply m c i _)
  have h2 : (fun (d' : Fin 64) (h : Fin 256) => (Rv3 m c main_v5 : S64x64x256.Idx → EReal) (ix3 i d' h))
      = Cert.Glu.vP (m ((c.tc : Thread nD τ).loc main_arg1)) (m ((c.tc : Thread nD τ).loc main_arg2)) (m ((c.tc : Thread nD τ).loc main_arg3)) i :=
    funext fun d' => funext fun h => (v5_apply m c i d' h).trans (v1_apply m c i _)
  have h3 : (fun (h : Fin 256) (d' : Fin 64) => (Rv3 m c main_v7 : S64x256x64.Idx → EReal) (ix3 i h d'))
      = Cert.Glu.fP (m ((c.tc : Thread nD τ).loc main_arg1)) (m ((c.tc : Thread nD τ).loc main_arg2)) (m ((c.tc : Thread nD τ).loc main_arg3)) i :=
    funext fun h => funext fun d' => (v7_apply m c i h d').trans (v1_apply m c i _)
  rw [h0, h4, h1, h2, h3]

end Cert.KernelIdeal.Fr

end
-- ==== Proof.RefG.lean ====
/-
  The reference program's result is the specification's function `Cert.Glu.G` of the five argument arrays.

  Both sides are one expression tree; only the order of writing differs, so no finiteness is needed. The program's
  result is read one operation at a time (the generated reading of the reference gives each operation's value at an
  index from its operands at an index), and each layer is identified with the specification's name for it, over arbitrary
  arrays:

  * the hypernetwork's row: the contraction of `s i` with column `j` of `W`, plus the bias broadcast along the samples,
    is `Glu.mlp`;
  * the three matrices: a slice of the row at offset 0, 16384 or 32768 followed by a row-major re-laying to 64 × 64 × 256
    (resp. 64 × 256 × 64) reads the row at flat position `d · 256 + h` (resp. `h · 64 + d`) past the offset, which is
    `Glu.gP`, `Glu.vP`, `Glu.fP`; dividing by the column's length (root of the sum of squares down the first matrix axis,
    a sum that starts from the zero word, floored by the word of 1e-12 and broadcast back) is `Glu.colNormalize`;
  * one token: the sum of its squares over the word of 64 plus the word of 1e-6, under the reciprocal root, broadcast along
    the token, times the token, times the scale broadcast over samples and tokens, is `Glu.tokXn`;
  * the two batched contractions over the token's 64 entries are `Glu.tokDot`; the program spells the gate's activation
    `g · (1 / (1 + exp (-g)))` with the word of 1.0, which denotes the real one, and that quotient is the logistic by
    definition, so gate times it times value is `Glu.tokHid`;
  * the contraction over the 256 hidden units with the normalised projection, plus the token, is `Glu.tokOut`.

  Every index is split into literal coordinates first, so that each composed index map of the reading is one of the
  coordinate constructors by a case split on the axis.
-/
import proofs.«143842_j63823214019112_1_alg».proof.Proof.Gen.ReferenceIdeal.Read
import proofs.«143842_j63823214019112_1_alg».proof.Proof.Spec

noncomputable section

namespace Cert.ReferenceIdeal.RefG

open Cert.ReferenceIdeal Cert.ReferenceIdeal.Gen Cert.ReferenceIdeal.Read Idealize.ShloMosaic Idealize.ShloMosaic.TcCoe Idealize.SL.Sem
open Idealize.ShloMosaic.ValueIdx

section

variable (x0 : (⟨S64x4096x64, .f32⟩ : BufTy).Contents (Elt Ideal)) (x1 : (⟨S64x1024, .f32⟩ : BufTy).Contents (Elt Ideal))
  (x2 : (⟨S1024x49152, .f32⟩ : BufTy).Contents (Elt Ideal)) (x3 : (⟨S49152, .f32⟩ : BufTy).Contents (Elt Ideal))
  (x4 : (⟨S64, .f32⟩ : BufTy).Contents (Elt Ideal))

/-- The word of 1.0 denotes the real one. -/
theorem one_word : Ideal.ofBits .f32 0x3F800000#32 = 1 := by simp [Ideal.ofBits, Ideal.ieee, -EReal.coe_mul]; norm_num

/-! ## The hypernetwork's row -/

theorem row_lidx (i : Fin 64) (j : Fin 49152) (k : Fin 1024) : lidx_main_v0 (ix2 i j) k = ix2 i k :=
  funext fun a => Fin.ext (by match a with | ⟨0, _⟩ => rfl | ⟨1, _⟩ => rfl)
theorem row_ridx (i : Fin 64) (j : Fin 49152) (k : Fin 1024) : ridx_main_v0 (ix2 i j) k = ix2 k j :=
  funext fun a => Fin.ext (by match a with | ⟨0, _⟩ => rfl | ⟨1, _⟩ => rfl)
theorem row_bidx (i : Fin 64) (j : Fin 49152) : idx_main_v1 (idx_main_v2 (ix2 i j)) = ix1 j :=
  funext fun a => Fin.ext (by match a with | ⟨0, _⟩ => rfl)

/-- The row for sample `i` at column `j` is the product of `s i` with column `j` of `W`, plus `b j`. -/
theorem row_at (i : Fin 64) (j : Fin 49152) :
    val_main_v3 (F := Ideal) x1 x2 x3 (ix2 i j) = Cert.Glu.mlp x1 x2 x3 i j := by
  rw [val_main_v3_apply, val_main_v0_apply, val_main_v2_apply, val_main_v1_apply, Ideal.addf_def, row_bidx]
  refine congrArg (· + x3 (ix1 j)) (Finset.sum_congr rfl fun k _ => ?_)
  rw [row_lidx, row_ridx]

/-! ## The gate matrix: the first third of the row, 64 rows of 256, normalised -/

theorem gate_idx (i : Fin 64) (d : Fin 64) (h : Fin 256) :
    idx_main_v4 (idx_main_v7 (ix3 i d h)) = ix2 i ⟨(d.val * 256 + h.val), by omega⟩ :=
  funext fun a => Fin.ext (by
    match a with
    | ⟨0, _⟩ => show ((i.val * 64 + d.val) * 256 + h.val) / 16384 = i.val; omega
    | ⟨1, _⟩ => show ((i.val * 64 + d.val) * 256 + h.val) % 16384 = (d.val * 256 + h.val); omega)

/-- The re-laid third of the row, read at `(i, d, h)`, is the row at the flat position the row-major order gives. -/
theorem gate_at (i : Fin 64) (d : Fin 64) (h : Fin 256) :
    val_main_v7 (F := Ideal) x1 x2 x3 (ix3 i d h) = Cert.Glu.gP x1 x2 x3 i d h := by
  rw [val_main_v7_apply, val_main_v4_apply, gate_idx]
  exact row_at x1 x2 x3 i _

theorem gate_sq_idx (i : Fin 64) (d : Fin 64) (h : Fin 256) (k : Fin 64) :
    idx_main_v9 (idx_main_v10 (idx_main_v14 (ix3 i d h))) k = ix3 i k h :=
  funext fun a => Fin.ext (by match a with | ⟨0, _⟩ => rfl | ⟨1, _⟩ => rfl | ⟨2, _⟩ => rfl)

/-- The quotient by the broadcast column length is the column normalisation: the length is the root of the sum of
    squares down the first matrix axis (the sum starts from the zero word), floored by the word of 1e-12. -/
theorem gate_norm_at (i : Fin 64) (d : Fin 64) (h : Fin 256) :
    val_main_v15 (F := Ideal) x1 x2 x3 (ix3 i d h) = Cert.Glu.colNormalize (Cert.Glu.gP x1 x2 x3 i) d h := by
  rw [val_main_v15_apply, val_main_v14_apply, val_main_v13_apply, val_main_v11_apply, val_main_v10_apply,
    val_main_v9_apply, val_main_v12_apply, val_main_cst_0_apply, val_main_cst_apply, gate_at]
  simp only [Ideal.hostDivf_def, Ideal.maximumf_def, Ideal.hostUnary_sqrt_def, Ideal.ofBits_def, Ideal.ofBits_zero_f32, zero_add]
  refine congrArg (fun t => Ideal.div (Cert.Glu.gP x1 x2 x3 i d h) (max (Ideal.sqrt t) Cert.Glu.epsN))
    (Finset.sum_congr rfl fun k _ => ?_)
  rw [gate_sq_idx, val_main_v8_apply, gate_at, Ideal.mulf_def]

/-! ## The value matrix: the second third of the row, 64 rows of 256, normalised -/

theorem value_idx (i : Fin 64) (d : Fin 64) (h : Fin 256) :
    idx_main_v5 (idx_main_v16 (ix3 i d h)) = ix2 i ⟨16384 + (d.val * 256 + h.val), by omega⟩ :=
  funext fun a => Fin.ext (by
    match a with
    | ⟨0, _⟩ => show ((i.val * 64 + d.val) * 256 + h.val) / 16384 = i.val; omega
    | ⟨1, _⟩ => show 16384 + ((i.val * 64 + d.val) * 256 + h.val) % 16384 = 16384 + (d.val * 256 + h.val); omega)

/-- The re-laid third of the row, read at `(i, d, h)`, is the row at the flat position the row-major order gives. -/
theorem value_at (i : Fin 64) (d : Fin 64) (h : Fin 256) :
    val_main_v16 (F := Ideal) x1 x2 x3 (ix3 i d h) = Cert.Glu.vP x1 x2 x3 i d h := by
  rw [val_main_v16_apply, val_main_v5_apply, value_idx]
  exact row_at x1 x2 x3 i _

theorem value_sq_idx (i : Fin 64) (d : Fin 64) (h : Fin 256) (k : Fin 64) :
    idx_main_v18 (idx_main_v19 (idx_main_v23 (ix3 i d h))) k = ix3 i k h :=
  funext fun a => Fin.ext (by match a with | ⟨0, _⟩ => rfl | ⟨1, _⟩ => rfl | ⟨2, _⟩ => rfl)

/-- The quotient by the broadcast column length is the column normalisation: the length is the root of the sum of
    squares down the first matrix axis (the sum starts from the zero word), floored by the word of 1e-12. -/
theorem value_norm_at (i : Fin 64) (d : Fin 64) (h : Fin 256) :
    val_main_v24 (F := Ideal) x1 x2 x3 (ix3 i d h) = Cert.Glu.colNormalize (Cert.Glu.vP x1 x2 x3 i) d h := by
  rw [val_main_v24_apply, val_main_v23_apply, val_main_v22_apply, val_main_v20_apply, val_main_v19_apply,
    val_main_v18_apply, val_main_v21_apply, val_main_cst_2_apply, val_main_cst_1_apply, value_at]
  simp only [Ideal.hostDivf_def, Ideal.maximumf_def, Ideal.hostUnary_sqrt_def, Ideal.ofBits_def, Ideal.ofBits_zero_f32, zero_add]
  refine congrArg (fun t => Ideal.div (Cert.Glu.vP x1 x2 x3 i d h) (max (Ideal.sqrt t) Cert.Glu.epsN))
    (Finset.sum_congr rfl fun k _ => ?_)
  rw [value_sq_idx, val_main_v17_apply, value_at, Ideal.mulf_def]

/-! ## The projection matrix: the last third of the row, 256 rows of 64, normalised -/

theorem proj_idx (i : Fin 64) (h : Fin 256) (d : Fin 64) :
    idx_main_v6 (idx_main_v25 (ix3 i h d)) = ix2 i ⟨32768 + (h.val * 64 + d.val), by omega⟩ :=
  funext fun a => Fin.ext (by
    match a with
    | ⟨0, _⟩ => show ((i.val * 256 + h.val) * 64 + d.val) / 16384 = i.val; omega
    | ⟨1, _⟩ => show 32768 + ((i.val * 256 + h.val) * 64 + d.val) % 16384 = 32768 + (h.val * 64 + d.val); omega)

/-- The re-laid third of the row, read at `(i, h, d)`, is the row at the flat position the row-major order gives. -/
theorem proj_at (i : Fin 64) (h : Fin 256) (d : Fin 64) :
    val_main_v25 (F := Ideal) x1 x2 x3 (ix3 i h d) = Cert.Glu.fP x1 x2 x3 i h d := by
  rw [val_main_v25_apply, val_main_v6_apply, proj_idx]
  exact row_at x1 x2 x3 i _

theorem proj_sq_idx (i : Fin 64) (h : Fin 256) (d : Fin 64) (k : Fin 256) :
    idx_main_v27 (idx_main_v28 (idx_main_v32 (ix3 i h d))) k = ix3 i k d :=
  funext fun a => Fin.ext (by match a with | ⟨0, _⟩ => rfl | ⟨1, _⟩ => rfl | ⟨2, _⟩ => rfl)

/-- The quotient by the broadcast column length is the column normalisation: the length is the root of the sum of
    squares down the first matrix axis (the sum starts from the zero word), floored by the word of 1e-12. -/
theorem proj_norm_at (i : Fin 64) (h : Fin 256) (d : Fin 64) :
    val_main_v33 (F := Ideal) x1 x2 x3 (ix3 i h d) = Cert.Glu.colNormalize (Cert.Glu.fP x1 x2 x3 i) h d := by
  rw [val_main_v33_apply, val_main_v32_apply, val_main_v31_apply, val_main_v29_apply, val_main_v28_apply,
    val_main_v27_apply, val_main_v30_apply, val_main_cst_4_apply, val_main_cst_3_apply, proj_at]
  simp only [Ideal.hostDivf_def, Ideal.maximumf_def, Ideal.hostUnary_sqrt_def, Ideal.ofBits_def, Ideal.ofBits_zero_f32, zero_add]
  refine congrArg (fun t => Ideal.div (Cert.Glu.fP x1 x2 x3 i h d) (max (Ideal.sqrt t) Cert.Glu.epsN))
    (Finset.sum_congr rfl fun k _ => ?_)
  rw [proj_sq_idx, val_main_v26_apply, proj_at, Ideal.mulf_def]

/-! ## One token: the reciprocal root of its mean square, and the scaled token -/

theorem tok_sq_idx (i : Fin 64) (n : Fin 4096) (d k : Fin 64) :
    idx_main_v35 (idx_main_v36 (idx_main_v42 (ix3 i n d))) k = ix3 i n k :=
  funext fun a => Fin.ext (by match a with | ⟨0, _⟩ => rfl | ⟨1, _⟩ => rfl | ⟨2, _⟩ => rfl)
theorem tok_sc_idx (i : Fin 64) (n : Fin 4096) (d : Fin 64) : idx_main_v44 (idx_main_v45 (ix3 i n d)) = ix1 d :=
  funext fun a => Fin.ext (by match a with | ⟨0, _⟩ => rfl)

/-- The factor broadcast along a token is the reciprocal root of the token's sum of squares over the word of 64, plus the
    word of 1e-6. -/
theorem tok_rr_at (i : Fin 64) (n : Fin 4096) (d : Fin 64) :
    val_main_v42 (F := Ideal) x0 (ix3 i n d) = Cert.Glu.tokRr (fun d' => x0 (ix3 i n d')) := by
  rw [val_main_v42_apply, val_main_v41_apply, val_main_v40_apply, val_main_v38_apply, val_main_v36_apply, val_main_v35_apply,
    val_main_v37_apply, val_main_cst_6_apply, val_main_v39_apply, val_main_cst_7_apply, val_main_cst_5_apply]
  simp only [Ideal.hostUnary_rsqrt_def, Ideal.addf_def, Ideal.hostDivf_def, Ideal.ofBits_def, Ideal.ofBits_zero_f32, zero_add]
  refine congrArg (fun t => Ideal.rsqrt (Ideal.div t Cert.Glu.c64 + Cert.Glu.epsR)) (Finset.sum_congr rfl fun k _ => ?_)
  rw [tok_sq_idx, val_main_v34_apply, Ideal.mulf_def]

/-- The token times that factor times the scale. -/
theorem tok_xn_at (i : Fin 64) (n : Fin 4096) (d : Fin 64) :
    val_main_v46 (F := Ideal) x0 x4 (ix3 i n d)
      = Cert.Glu.tokXn (fun d' => x0 (ix3 i n d')) (fun d' => x4 (ix1 d')) d := by
  rw [val_main_v46_apply, val_main_v43_apply, val_main_v45_apply, val_main_v44_apply, tok_rr_at, tok_sc_idx]
  simp only [Ideal.mulf_def]
  rfl

/-! ## The two products with the normalised 64 × 256 matrices -/

theorem gate_dot_lidx (i : Fin 64) (n : Fin 4096) (h : Fin 256) (k : Fin 64) : lidx_main_v47 (ix3 i n h) k = ix3 i n k :=
  funext fun a => Fin.ext (by match a with | ⟨0, _⟩ => rfl | ⟨1, _⟩ => rfl | ⟨2, _⟩ => rfl)
theorem gate_dot_ridx (i : Fin 64) (n : Fin 4096) (h : Fin 256) (k : Fin 64) : ridx_main_v47 (ix3 i n h) k = ix3 i k h :=
  funext fun a => Fin.ext (by match a with | ⟨0, _⟩ => rfl | ⟨1, _⟩ => rfl | ⟨2, _⟩ => rfl)
theorem value_dot_lidx (i : Fin 64) (n : Fin 4096) (h : Fin 256) (k : Fin 64) : lidx_main_v48 (ix3 i n h) k = ix3 i n k :=
  funext fun a => Fin.ext (by match a with | ⟨0, _⟩ => rfl | ⟨1, _⟩ => rfl | ⟨2, _⟩ => rfl)
theorem value_dot_ridx (i : Fin 64) (n : Fin 4096) (h : Fin 256) (k : Fin 64) : ridx_main_v48 (ix3 i n h) k = ix3 i k h :=
  funext fun a => Fin.ext (by match a with | ⟨0, _⟩ => rfl | ⟨1, _⟩ => rfl | ⟨2, _⟩ => rfl)

/-- The batched contraction over the token's 64 entries, against the normalised gate matrix of the token's sample. -/
theorem gate_dot_at (i : Fin 64) (n : Fin 4096) (h : Fin 256) :
    val_main_v47 (F := Ideal) x0 x1 x2 x3 x4 (ix3 i n h)
      = Cert.Glu.tokDot (fun d' => x0 (ix3 i n d')) (fun d' => x4 (ix1 d')) (Cert.Glu.colNormalize (Cert.Glu.gP x1 x2 x3 i)) h := by
  rw [val_main_v47_apply]
  refine Finset.sum_congr rfl fun k _ => ?_
  rw [gate_dot_lidx, gate_dot_ridx, tok_xn_at, gate_norm_at]

/-- The same against the normalised value matrix. -/
theorem value_dot_at (i : Fin 64) (n : Fin 4096) (h : Fin 256) :
    val_main_v48 (F := Ideal) x0 x1 x2 x3 x4 (ix3 i n h)
      = Cert.Glu.tokDot (fun d' => x0 (ix3 i n d')) (fun d' => x4 (ix1 d')) (Cert.Glu.colNormalize (Cert.Glu.vP x1 x2 x3 i)) h := by
  rw [val_main_v48_apply]
  refine Finset.sum_congr rfl fun k _ => ?_
  rw [value_dot_lidx, value_dot_ridx, tok_xn_at, value_norm_at]

/-! ## The gated hidden unit -/

/-- The gate times `1 / (1 + exp (-gate))`, both ones the word of 1.0, is the gate times its logistic; times the value. -/
theorem hid_at (i : Fin 64) (n : Fin 4096) (h : Fin 256) :
    val_main_v50 (F := Ideal) x0 x1 x2 x3 x4 (ix3 i n h)
      = Cert.Glu.tokHid (fun d' => x0 (ix3 i n d')) (fun d' => x4 (ix1 d')) (Cert.Glu.colNormalize (Cert.Glu.gP x1 x2 x3 i))
          (Cert.Glu.colNormalize (Cert.Glu.vP x1 x2 x3 i)) h := by
  rw [val_main_v50_apply, val_main_v49_apply, val_main_call0_v5_apply, val_main_call0_v3_apply, val_main_call0_v1_apply,
    val_main_call0_v0_apply, val_main_call0_v4_apply, val_main_call0_cst_0_apply, val_main_call0_v2_apply,
    val_main_call0_cst_apply, gate_dot_at, value_dot_at]
  simp only [Ideal.mulf_def, Ideal.hostDivf_def, Ideal.addf_def, Ideal.hostUnary_exp_def, Ideal.hostNegf_def, Ideal.negf_def,
    Ideal.ofBits_def, one_word]
  rfl

/-! ## The projection, and the token added back -/

theorem out_lidx (i : Fin 64) (n : Fin 4096) (d : Fin 64) (k : Fin 256) : lidx_main_v51 (ix3 i n d) k = ix3 i n k :=
  funext fun a => Fin.ext (by match a with | ⟨0, _⟩ => rfl | ⟨1, _⟩ => rfl | ⟨2, _⟩ => rfl)
theorem out_ridx (i : Fin 64) (n : Fin 4096) (d : Fin 64) (k : Fin 256) : ridx_main_v51 (ix3 i n d) k = ix3 i k d :=
  funext fun a => Fin.ext (by match a with | ⟨0, _⟩ => rfl | ⟨1, _⟩ => rfl | ⟨2, _⟩ => rfl)

/-- The last stage at `(i, n, d)` is the specification's entry. -/
theorem out_at (i : Fin 64) (n : Fin 4096) (d : Fin 64) :
    val_main_v52 (F := Ideal) x0 x1 x2 x3 x4 (ix3 i n d) = Cert.Glu.out x0 x1 x2 x3 x4 i n d := by
  rw [val_main_v52_apply, val_main_v51_apply, Ideal.addf_def]
  refine congrArg (· + x0 (ix3 i n d)) (Finset.sum_congr rfl fun k _ => ?_)
  rw [out_lidx, out_ridx, hid_at, proj_norm_at]

end

/-- The reference's result is the specification's function of the five argument arrays. -/
theorem res_eq (m : (ℓ : Loc nD τ sig) → Buf (Elt Ideal) ℓ) (c : Dev nD) :
    (Cert.ReferenceIdeal.Value.res_out0 (F := Ideal) m c : S64x4096x64.Idx → EReal)
      = Cert.Glu.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext j
  obtain ⟨i, n, d, rfl⟩ : ∃ (i : Fin 64) (n : Fin 4096) (d : Fin 64), j = ix3 i n d := ⟨j 0, j 1, j 2, eq_ix3 j⟩
  rw [Cert.Glu.G_ix3]
  exact (congrFun (val_main_v52_eq (F := Ideal) m c) (ix3 i n d)).trans (out_at _ _ _ _ _ i n d)

end Cert.ReferenceIdeal.RefG
end
-- ==== Proof.lean ====
/-
  The certificate's five claims.

  Both printed kernels are a reshape, a hypernetwork matrix product over 48 column blocks, seven slices and reshapes,
  and a gated unit over 64 × 4 token tiles that keeps each sample's three normalised weight matrices from the sample's
  first tile to its last. Their frames (every execution terminates, nothing faults, the five arguments end as launched)
  come from one run per program that names every buffer's final contents; the reference's frame from its run. The
  idealization rewrote nothing. And at the extended reals the kernel's result array and the reference's are one function
  of the arguments, `Cert.Glu.G`: the kernel side read off its run block by block, the reference side operation by
  operation. No law used needs the inputs to be finite: the two sides are the same expression, laid out differently.
-/
import proofs.«143842_j63823214019112_1_alg».proof.Defs
import proofs.«143842_j63823214019112_1_alg».proof.Proof.Gen.Kernel
import proofs.«143842_j63823214019112_1_alg».proof.Proof.Gen.KernelIdeal
import proofs.«143842_j63823214019112_1_alg».proof.Proof.Gen.ReferenceIdeal
import proofs.«143842_j63823214019112_1_alg».proof.Proof.Gen.Pre_finite_inputs
import proofs.«143842_j63823214019112_1_alg».proof.Proof.Gen.ReferenceIdeal.Run
import proofs.«143842_j63823214019112_1_alg».proof.Proof.K.FrRun
import proofs.«143842_j63823214019112_1_alg».proof.Proof.KI.FrRun
import proofs.«143842_j63823214019112_1_alg».proof.Proof.KI.Bridge
import proofs.«143842_j63823214019112_1_alg».proof.Proof.RefG
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Fr.frame (F := Bits) m ρ
/-- So does the idealized kernel. -/
theorem frame_ki : Cert.frame_KernelIdeal := fun m ρ _ => Cert.KernelIdeal.Fr.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at `G` of the arguments. -/
theorem algebraic : Cert.algebraic_KernelIdeal_ReferenceIdeal := by
  intro m ρ m' ρ' _ hagree
  refine ⟨fun c => Cert.Glu.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Fr.result_eq m c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefG.res_eq m' c).trans ?_
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
